-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S32000x1024 : Shape := ⟨2, ![32000, 1024]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S32000x1024 : S_.BroadcastsInDim S32000x1024 (![] : Fin 0 → Fin S32000x1024.rank)
  reducesTo_S32000x1024_S_d0_1 : S32000x1024.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8192x1024 .f32) (main_arg1 : FVec F S32000x1024 .f32) (main_arg2 : IVec S8192 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S32000x1024 .f32 := Host.absf main_arg1
  let main_cst_0 : FVec F S_ .f32 := constant S_ .f32 0x7F800000#32
  let main_v5 : FVec F S32000x1024 .f32 := broadcastInDim S32000x1024 ![] bcast_S_S32000x1024 main_cst_0
  let main_v6 : IVec S32000x1024 1 := cmpf .olt main_v4 main_v5
  let main_c_1 : IVec S_ 1 := constantI S_ 1 1#1
  let main_v7 : IVec S_ 1 := (fun x v => Host.reduce IntOp.andi x v reducesTo_S32000x1024_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg2 main_v9
  let main_c_3 : IVec S_ 1 := constantI S_ 1 1#1
  let main_v11 : IVec S_ 1 := (fun x v => Host.reduce IntOp.andi x v reducesTo_S8192_S_d0 h_S_) main_v10 main_c_3
  let main_v12 : IVec S_ 1 := andi main_v8 main_v11
  let main_c_4 : IVec S_ 32 := constantI S_ 32 32000#32
  let main_v13 : IVec S8192 32 := broadcastInDim S8192 ![] bcast_S_S8192 main_c_4
  let main_v14 : IVec S8192 1 := cmpi .slt main_arg2 main_v13
  let main_c_5 : IVec S_ 1 := constantI S_ 1 1#1
  let main_v15 : IVec S_ 1 := (fun x v => Host.reduce IntOp.andi x v reducesTo_S8192_S_d0 h_S_) main_v14 main_c_5
  fn_part1 (F := F) main_v12 main_v15
-- ==== Kernel.lean ====
abbrev S8192x1024 : Shape := ⟨2, ![8192, 1024]⟩
abbrev S32000x1024 : Shape := ⟨2, ![32000, 1024]⟩
abbrev S8192 : Shape := ⟨1, ![8192]⟩
abbrev S_ : Shape := ⟨0, ![]⟩
abbrev S8192x1 : Shape := ⟨2, ![8192, 1]⟩
abbrev S1024x1024 : Shape := ⟨2, ![1024, 1024]⟩
abbrev S1280x1024 : Shape := ⟨2, ![1280, 1024]⟩
abbrev S1024x1 : Shape := ⟨2, ![1024, 1]⟩
abbrev S1024x1280 : Shape := ⟨2, ![1024, 1280]⟩
abbrev S1024 : Shape := ⟨1, ![1024]⟩

abbrev nBuf : Space → Nat
  | .hbm => 17
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S32000x1024, .f32⟩
  | .hbm, ⟨2, _⟩ => ⟨S8192, .i32⟩
  | .hbm, ⟨3, _⟩ => ⟨S8192x1024, .bf16⟩
  | .hbm, ⟨4, _⟩ => ⟨S32000x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S8192x1, .f32⟩
  | .hbm, ⟨15, _⟩ => ⟨S_, .f32⟩
  | .hbm, ⟨16, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1280x1024, .bf16⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v46 : BitVec 1 := Scalar.cmpi .eq arg1 c24_i32
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  bcast_S_S8192 : S_.BroadcastsInDim S8192 (![] : Fin 0 → Fin S8192.rank)
  shapeCasts_S8192_S8192x1 : S8192.ShapeCasts S8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  reduces_S1024x1280_S1024 : S1024x1280.Reduces [1] S1024
  shapeCasts_S1024_S1024x1 : S1024.ShapeCasts S1024x1
  broadcasts_S1024x1_S1024x1280 : S1024x1.Broadcasts S1024x1280
  iota_S1024x1280_d1_w32 : S1024x1280.Iotas .tc 32 [1]
  reducesTo_S8192x1_S_d0_1 : S8192x1.ReducesTo [0, 1] S_
  h_S_ : 0 < S_.numel
  dot_S1024x1024_S1280x1024_S1024x1280_1_1_0_0_n_n_wf : DotDims.WF S1024x1024 S1280x1024 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x1024.size a ≤ S32000x1024.size a
  hwx0_1 : ∀ i : grid0.Coords, EltTy.bits .bf16 = 32 ∨ (Rect.block (s := S32000x1024) S1280x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def dot_S1024x1024_S1280x1024_S1024x1280_1_1_0_0_n_n : DotDims S1024x1024 S1280x1024 S1024x1280 where
  lhsContracting := [1]
  rhsContracting := [1]
  lhsNonContracting := [0]
  rhsNonContracting := [0]
  lhsBatch := []
  rhsBatch := []
  wf := dot_S1024x1024_S1280x1024_S1024x1280_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1280x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S32000x1024 : Shape := ⟨2, ![32000, 1024]⟩
abbrev S8192 : Shape := ⟨1, ![8192]⟩
abbrev S8192x32000 : Shape := ⟨2, ![8192, 32000]⟩
abbrev S_ : Shape := ⟨0, ![]⟩
abbrev S8192x1 : Shape := ⟨2, ![8192, 1]⟩
abbrev S1 : Shape := ⟨1, ![1]⟩
abbrev S1x1 : Shape := ⟨2, ![1, 1]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S32000x1024, .f32⟩
  | .hbm, ⟨2, _⟩ => ⟨S8192, .i32⟩
  | .hbm, ⟨3, _⟩ => ⟨S8192x32000, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x32000, .f32⟩
  | .hbm, ⟨8, _⟩ => ⟨S8192x32000, .f32⟩
  | .hbm, ⟨9, _⟩ => ⟨S8192x32000, .f32⟩
  | .hbm, ⟨10, _⟩ => ⟨S_, .f32⟩
  | .hbm, ⟨11, _⟩ => ⟨S8192, .f32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S8192x1, .i32⟩
  | .hbm, ⟨20, _⟩ => ⟨S1, .i32⟩
  | .hbm, ⟨21, _⟩ => ⟨S_, .i32⟩
  | .hbm, ⟨22, _⟩ => ⟨S8192x1, .i32⟩
  | .hbm, ⟨23, _⟩ => ⟨S8192x1, .i1⟩
  | .hbm, ⟨24, _⟩ => ⟨S1x1, .i32⟩
  | .hbm, ⟨25, _⟩ => ⟨S8192x1, .i32⟩
  | .hbm, ⟨26, _⟩ => ⟨S8192x1, .i1⟩
  | .hbm, ⟨27, _⟩ => ⟨S8192x1, .i1⟩
  | .hbm, ⟨28, _⟩ => ⟨S_, .i1⟩
  | .hbm, ⟨29, _⟩ => ⟨S8192, .i1⟩
  | .hbm, ⟨30, _⟩ => ⟨S8192x1024, .f32⟩
  | .hbm, ⟨31, _⟩ => ⟨S8192x1024, .i1⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v7 : Ref sig .tc := ⟨.hbm, 34, rfl⟩
abbrev main_v8 : Ref sig .tc := ⟨.hbm, 35, rfl⟩
abbrev main_cst_1 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_2 : Ref sig .tc := ⟨.hbm, 41, rfl⟩
abbrev main_v13 : Ref sig .tc := ⟨.hbm, 42, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S_S8192 : S_.BroadcastsInDim S8192 (![] : Fin 0 → Fin S8192.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  bcast_S8192_S8192x1024_0 : S8192.BroadcastsInDim S8192x1024 (![0] : Fin 1 → Fin S8192x1024.rank)
  bcast_S_S8192x1024 : S_.BroadcastsInDim S8192x1024 (![] : Fin 0 → Fin S8192x1024.rank)
  reducesTo_S8192x1024_S8192_d1 : S8192x1024.ReducesTo [1] S8192
  reducesTo_S8192_S_d0 : S8192.ReducesTo [0] S_
  dot_S8192x1024_S32000x1024_S8192x32000_1_1_0_0_n_n_wf : DotDims.WF S8192x1024 S32000x1024 S8192x32000 [1] [1] [0] [0] [] []
  gather_S32000x1024_S8192x1_S8192x1024_1_0_n_n_0_1_11024_wf : GatherDims.WF S32000x1024 S8192x1 S8192x1024 [1] [0] [] [0] [] 1 ![1, 1024]

variable [Facts₀]

def dot_S8192x1024_S32000x1024_S8192x32000_1_1_0_0_n_n : DotDims S8192x1024 S32000x1024 S8192x32000 where
  lhsContracting := [1]
  rhsContracting := [1]
  lhsNonContracting := [0]
  rhsNonContracting := [0]
  lhsBatch := []
  rhsBatch := []
  wf := dot_S8192x1024_S32000x1024_S8192x32000_1_1_0_0_n_n_wf
def gather_S32000x1024_S8192x1_S8192x1024_1_0_n_n_0_1_11024 : GatherDims S32000x1024 S8192x1 S8192x1024 where
  offsetDims := [1]
  collapsedSliceDims := [0]
  operandBatchingDims := []
  startIndicesBatchingDims := []
  startIndexMap := [0]
  indexVectorDim := 1
  sliceSizes := ![1, 1024]
  wf := gather_S32000x1024_S8192x1_S8192x1024_1_0_n_n_0_1_11024_wf

class Facts : Prop extends Facts₀ where

variable [Facts]
-- ==== Proof.KPieces.lean ====
/-
  What one run of the kernel body leaves in each buffer it stores to, as a value of what it loaded.

  The body keeps three per-row running quantities in scratch buffers across the chunks of a token tile: a shift, a sum of
  shifted exponentials and a masked sum of scores. At a tile's first chunk it resets them and then updates them; at every
  chunk it updates them from the scores of the tile's rows against the chunk's vocabulary rows; at the last chunk it also
  stores `log(sum) + shift - masked sum` to the output block. Each buffer ends holding ONE covering store, so its contents
  are that store's value: the update applied to the buffer's previous contents (to the reset values at a first chunk),
  and for the output the final expression over the three updated values.
-/
import proofs.«430093_j77902116814964_3_alg».proof.Proof.Gen.KernelIdeal.Frame
import Idealize.ShloMosaic.Lib.Pipeline.Value
import Idealize.ShloMosaic.Lib.Tactic

set_option maxRecDepth 16384

noncomputable section

namespace Cert.KernelIdeal.KV

open Idealize.ShloMosaic Idealize.ShloMosaic.TcCoe Idealize.ShloMosaic.Tactic Idealize.SL.Sem
open Idealize.ShloMosaic.Pipeline (Dat)
open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

variable (c : Dev nD) (i : grid0.Coords)
  (a2 : Memref sig .tc .vmem S1024x1024 .bf16) (h2 : a2.IsWhole) (a3 : Memref sig .tc .vmem S1280x1024 .bf16) (h3 : a3.IsWhole)
  (a4 : Memref sig .tc .vmem S1024x1 .i32) (h4 : a4.IsWhole) (a5 : Memref sig .tc .vmem S1024x1 .f32) (h5 : a5.IsWhole)
  (a6 : Memref sig .tc .vmem S1024x1 .f32) (h6 : a6.IsWhole) (a7 : Memref sig .tc .vmem S1024x1 .f32) (h7 : a7.IsWhole)
  (a8 : Memref sig .tc .vmem S1024x1 .f32) (h8 : a8.IsWhole)
  (x0 : Vec F S1024x1024 .bf16) (x1 : Vec F S1280x1024 .bf16) (x2 : Vec F S1024x1 .i32) (xs0 xs1 xs2 : Vec F S1024x1 .f32)

/-- A middle chunk leaves in the shift's buffer the larger of the old shift and the chunk's row maxima. -/
theorem sB0 (hc0 : ¬cond0_0 i) (hc1 : ¬cond0_1 i) :
    sout0_B_0 c i a2 h2 a3 h3 a4 h4 a5 h5 a6 h6 a7 h7 a8 h8 hc0 hc1 x0 x1 x2 xs0 xs1 xs2 = k0_pay9 x0 x1 xs0 := by
  unfold sout0_B_0
  rw [View.read_writes_eq_canon _ _ _ (scover0_B_0 c i a2 h2 a3 h3 a4 h4 a5 h5 a6 h6 a7 h7 a8 h8 hc0 hc1 x0 x1 x2 xs0 xs1 xs2)]
  unfold kernelRun0_B
  dsimp only
  sl_unfold_words
  rw [View.canon_unit_zero hz]
  simp only [View.readAt_eq_ld, h2.read_unread, h3.read_unread, h4.read_unread, h6.read_unread, h7.read_unread, h8.read_unread,
    View.ld_unit_zero (S := S1024x1) hz, View.ld_unit_zero (S := S1024x1024) hz, View.ld_unit_zero (S := S1280x1024) hz,
    View.readCov_unit_zero (S := S1024x1) _ hz]

/-- A middle chunk leaves in the sum's buffer the old sum rescaled to the new shift plus the chunk's shifted exponentials. -/
theorem sB1 (hc0 : ¬cond0_0 i) (hc1 : ¬cond0_1 i) :
    sout0_B_1 c i a2 h2 a3 h3 a4 h4 a5 h5 a6 h6 a7 h7 a8 h8 hc0 hc1 x0 x1 x2 xs0 xs1 xs2 = k0_pay8 x0 x1 xs0 xs0 xs1 := by
  unfold sout0_B_1
  rw [View.read_writes_eq_canon _ _ _ (scover0_B_1 c i a2 h2 a3 h3 a4 h4 a5 h5 a6 h6 a7 h7 a8 h8 hc0 hc1 x0 x1 x2 xs0 xs1 xs2)]
  unfold kernelRun0_B
  dsimp only
  sl_unfold_words
  rw [View.canon_unit_zero hz]
  simp only [View.readAt_eq_ld, h2.read_unread, h3.read_unread, h4.read_unread, h6.read_unread, h7.read_unread, h8.read_unread,
    View.ld_unit_zero (S := S1024x1) hz, View.ld_unit_zero (S := S1024x1024) hz, View.ld_unit_zero (S := S1280x1024) hz,
    View.readCov_unit_zero (S := S1024x1) _ hz]

/-- A middle chunk leaves in the masked sum's buffer the old value plus the chunk's scores at the target column. -/
theorem sB2 (hc0 : ¬cond0_0 i) (hc1 : ¬cond0_1 i) :
    sout0_B_2 c i a2 h2 a3 h3 a4 h4 a5 h5 a6 h6 a7 h7 a8 h8 hc0 hc1 x0 x1 x2 xs0 xs1 xs2 = k0_pay1 (k0_pay6 x0 x1) (iota .tc S1024x1280 32 [1] Facts₀.iota_S1024x1280_d1_w32) (k0_pay10 x2) (Scalar.muli (BitVec.ofNat 32 (i 1).val) 1280#32) xs2 := by
  unfold sout0_B_2
  rw [View.read_writes_eq_canon _ _ _ (scover0_B_2 c i a2 h2 a3 h3 a4 h4 a5 h5 a6 h6 a7 h7 a8 h8 hc0 hc1 x0 x1 x2 xs0 xs1 xs2)]
  unfold kernelRun0_B
  dsimp only
  sl_unfold_words
  rw [View.canon_unit_zero hz]
  simp only [View.readAt_eq_ld, h2.read_unread, h3.read_unread, h4.read_unread, h6.read_unread, h7.read_unread, h8.read_unread,
    View.ld_unit_zero (S := S1024x1) hz, View.ld_unit_zero (S := S1024x1024) hz, View.ld_unit_zero (S := S1280x1024) hz,
    View.readCov_unit_zero (S := S1024x1) _ hz]

/-- The last chunk updates the shift as every chunk does. -/
theorem sC0 (hc0 : ¬cond0_0 i) (hc1 : cond0_1 i) :
    sout0_C_0 c i a2 h2 a3 h3 a4 h4 a5 h5 a6 h6 a7 h7 a8 h8 hc0 hc1 x0 x1 x2 xs0 xs1 xs2 = k0_pay9 x0 x1 xs0 := by
  unfold sout0_C_0
  rw [View.read_writes_eq_canon _ _ _ (scover0_C_0 c i a2 h2 a3 h3 a4 h4 a5 h5 a6 h6 a7 h7 a8 h8 hc0 hc1 x0 x1 x2 xs0 xs1 xs2)]
  unfold kernelRun0_C
  dsimp only
  sl_unfold_words
  rw [View.canon_unit_zero hz]
  simp only [View.readAt_eq_ld, h2.read_unread, h3.read_unread, h4.read_unread, h6.read_unread, h7.read_unread, h8.read_unread,
    View.ld_unit_zero (S := S1024x1) hz, View.ld_unit_zero (S := S1024x1024) hz, View.ld_unit_zero (S := S1280x1024) hz,
    View.readCov_unit_zero (S := S1024x1) _ hz]

/-- The last chunk updates the sum as every chunk does. -/
theorem sC1 (hc0 : ¬cond0_0 i) (hc1 : cond0_1 i) :
    sout0_C_1 c i a2 h2 a3 h3 a4 h4 a5 h5 a6 h6 a7 h7 a8 h8 hc0 hc1 x0 x1 x2 xs0 xs1 xs2 = k0_pay8 x0 x1 xs0 xs0 xs1 := by
  unfold sout0_C_1
  rw [View.read_writes_eq_canon _ _ _ (scover0_C_1 c i a2 h2 a3 h3 a4 h4 a5 h5 a6 h6 a7 h7 a8 h8 hc0 hc1 x0 x1 x2 xs0 xs1 xs2)]
  unfold kernelRun0_C
  dsimp only
  sl_unfold_words
  rw [View.canon_unit_zero hz]
  simp only [View.readAt_eq_ld, h2.read_unread, h3.read_unread, h4.read_unread, h6.read_unread, h7.read_unread, h8.read_unread,
    View.ld_unit_zero (S := S1024x1) hz, View.ld_unit_zero (S := S1024x1024) hz, View.ld_unit_zero (S := S1280x1024) hz,
    View.readCov_unit_zero (S := S1024x1) _ hz]

/-- The last chunk updates the masked sum as every chunk does. -/
theorem sC2 (hc0 : ¬cond0_0 i) (hc1 : cond0_1 i) :
    sout0_C_2 c i a2 h2 a3 h3 a4 h4 a5 h5 a6 h6 a7 h7 a8 h8 hc0 hc1 x0 x1 x2 xs0 xs1 xs2 = k0_pay1 (k0_pay6 x0 x1) (iota .tc S1024x1280 32 [1] Facts₀.iota_S1024x1280_d1_w32) (k0_pay10 x2) (Scalar.muli (BitVec.ofNat 32 (i 1).val) 1280#32) xs2 := by
  unfold sout0_C_2
  rw [View.read_writes_eq_canon _ _ _ (scover0_C_2 c i a2 h2 a3 h3 a4 h4 a5 h5 a6 h6 a7 h7 a8 h8 hc0 hc1 x0 x1 x2 xs0 xs1 xs2)]
  unfold kernelRun0_C
  dsimp only
  sl_unfold_words
  rw [View.canon_unit_zero hz]
  simp only [View.readAt_eq_ld, h2.read_unread, h3.read_unread, h4.read_unread, h6.read_unread, h7.read_unread, h8.read_unread,
    View.ld_unit_zero (S := S1024x1) hz, View.ld_unit_zero (S := S1024x1024) hz, View.ld_unit_zero (S := S1280x1024) hz,
    View.readCov_unit_zero (S := S1024x1) _ hz]

/-- The last chunk stores to the output block the logarithm of the updated sum plus the updated shift minus the updated masked sum. -/
theorem oC3 (hc0 : ¬cond0_0 i) (hc1 : cond0_1 i) :
    out0_C_3 c i a2 h2 a3 h3 a4 h4 a5 h5 a6 h6 a7 h7 a8 h8 hc0 hc1 x0 x1 x2 xs0 xs1 xs2 = k0_pay2 (k0_pay8 x0 x1 xs0 xs0 xs1) (k0_pay9 x0 x1 xs0) (k0_pay1 (k0_pay6 x0 x1) (iota .tc S1024x1280 32 [1] Facts₀.iota_S1024x1280_d1_w32) (k0_pay10 x2) (Scalar.muli (BitVec.ofNat 32 (i 1).val) 1280#32) xs2) := by
  unfold out0_C_3
  rw [View.read_writes_eq_canon _ _ _ (cover0_C_3 c i a2 h2 a3 h3 a4 h4 a5 h5 a6 h6 a7 h7 a8 h8 hc0 hc1 x0 x1 x2 xs0 xs1 xs2)]
  unfold kernelRun0_C
  dsimp only
  sl_unfold_words
  rw [View.canon_unit_zero hz]
  simp only [View.readAt_eq_ld, h2.read_unread, h3.read_unread, h4.read_unread, h6.read_unread, h7.read_unread, h8.read_unread,
    View.ld_unit_zero (S := S1024x1) hz, View.ld_unit_zero (S := S1024x1024) hz, View.ld_unit_zero (S := S1280x1024) hz,
    View.readCov_unit_zero (S := S1024x1) _ hz]

/-- A first chunk resets the shift to its initial constant and then updates it. -/
theorem sA0 (hc0 : cond0_0 i) (hc1 : ¬cond0_1 i) :
    sout0_A_0 c i a2 h2 a3 h3 a4 h4 a5 h5 a6 h6 a7 h7 a8 h8 hc0 hc1 x0 x1 x2 = k0_pay9 x0 x1 (k0_pay3 (F := F)) := by
  unfold sout0_A_0
  rw [View.read_writes_eq_canon _ _ _ (scover0_A_0 c i a2 h2 a3 h3 a4 h4 a5 h5 a6 h6 a7 h7 a8 h8 hc0 hc1 x0 x1 x2)]
  unfold kernelRun0_A
  dsimp only
  sl_unfold_words
  rw [View.canon_cons_unit_zero (S := S1024x1) hz]
  simp only [View.readAt_eq_ld, h2.read_unread, h3.read_unread, h4.read_unread, h6.read_unread, h7.read_unread, h8.read_unread,
    View.ld_unit_zero (S := S1024x1) hz, View.ld_unit_zero (S := S1024x1024) hz, View.ld_unit_zero (S := S1280x1024) hz,
    View.readCov_unit_zero (S := S1024x1) _ hz]

/-- A first chunk resets the sum to zero and then updates it (against the reset shift). -/
theorem sA1 (hc0 : cond0_0 i) (hc1 : ¬cond0_1 i) :
    sout0_A_1 c i a2 h2 a3 h3 a4 h4 a5 h5 a6 h6 a7 h7 a8 h8 hc0 hc1 x0 x1 x2 = k0_pay8 x0 x1 (k0_pay3 (F := F)) (k0_pay3 (F := F)) (k0_pay4 (F := F)) := by
  unfold sout0_A_1
  rw [View.read_writes_eq_canon _ _ _ (scover0_A_1 c i a2 h2 a3 h3 a4 h4 a5 h5 a6 h6 a7 h7 a8 h8 hc0 hc1 x0 x1 x2)]
  unfold kernelRun0_A
  dsimp only
  sl_unfold_words
  rw [View.canon_cons_unit_zero (S := S1024x1) hz]
  simp only [View.readAt_eq_ld, h2.read_unread, h3.read_unread, h4.read_unread, h6.read_unread, h7.read_unread, h8.read_unread,
    View.ld_unit_zero (S := S1024x1) hz, View.ld_unit_zero (S := S1024x1024) hz, View.ld_unit_zero (S := S1280x1024) hz,
    View.readCov_unit_zero (S := S1024x1) _ hz]

/-- A first chunk resets the masked sum to zero and then updates it. -/
theorem sA2 (hc0 : cond0_0 i) (hc1 : ¬cond0_1 i) :
    sout0_A_2 c i a2 h2 a3 h3 a4 h4 a5 h5 a6 h6 a7 h7 a8 h8 hc0 hc1 x0 x1 x2 = k0_pay1 (k0_pay6 x0 x1) (iota .tc S1024x1280 32 [1] Facts₀.iota_S1024x1280_d1_w32) (k0_pay10 x2) (Scalar.muli (BitVec.ofNat 32 (i 1).val) 1280#32) (k0_pay5 (F := F)) := by
  unfold sout0_A_2
  rw [View.read_writes_eq_canon _ _ _ (scover0_A_2 c i a2 h2 a3 h3 a4 h4 a5 h5 a6 h6 a7 h7 a8 h8 hc0 hc1 x0 x1 x2)]
  unfold kernelRun0_A
  dsimp only
  sl_unfold_words
  rw [View.canon_cons_unit_zero (S := S1024x1) hz]
  simp only [View.readAt_eq_ld, h2.read_unread, h3.read_unread, h4.read_unread, h6.read_unread, h7.read_unread, h8.read_unread,
    View.ld_unit_zero (S := S1024x1) hz, View.ld_unit_zero (S := S1024x1024) hz, View.ld_unit_zero (S := S1280x1024) hz,
    View.readCov_unit_zero (S := S1024x1) _ hz]

end Cert.KernelIdeal.KV

end
-- ==== Proof.Lse.lean ====
/-
  The real-number core of a chunked log-sum-exp with a carried shift, a carried sum and a carried masked sum.

  For one row with scores `F 0, F 1, …` (real numbers) and a target column `g`:
  * the row's loss is `log (∑ v < N, exp (F v)) - F g`;
  * a pass over the columns in chunks keeps a shift `μ` (any real: it need not be the running maximum), the sum
    `∑ v < n, exp (F v - μ)` of the columns seen so far and the masked sum `∑ v < n, [v = g] · F v`;
    a chunk replaces `μ` by `max μ (the chunk's maximum)`, rescales the carried sum by `exp (μ - μ')` and adds the chunk's terms;
  * since `log (∑ exp (F v - μ)) + μ` does not depend on `μ`, the last state gives the row's loss, and so does the
    one-pass form that shifts by the maximum of the whole row.
  Everything is stated on the extended reals for values that are real numbers, which is where the two programs meet.
-/
import Idealize.ShloMosaic.PureOps.Ideal
import Mathlib.Data.EReal.Operations
import Mathlib.Data.Finset.Fold
import Mathlib.Algebra.BigOperators.Fin
import Mathlib.Analysis.SpecialFunctions.Exp
import Mathlib.Analysis.SpecialFunctions.Log.Basic

noncomputable section

namespace Cert.Lse

open Finset Idealize.ShloMosaic

/-- The score of row `t` against column `v`: the inner product over `D` features. -/
def lg (D : ℕ) (x w : ℕ → ℕ → ℝ) (t v : ℕ) : ℝ := ∑ d ∈ range D, x t d * w v d

/-- One row's loss over `N` columns with target `g`: log-sum-exp of the scores minus the target's score. -/
def rowLoss (F : ℕ → ℝ) (g N : ℕ) : ℝ := Real.log (∑ v ∈ range N, Real.exp (F v)) - F g

/-- The carried state after the first `n` columns: a real shift, the shifted exponential sum, the masked sum. -/
def RowInv (F : ℕ → ℝ) (g n : ℕ) (mv lv tv : EReal) : Prop :=
  ∃ μ : ℝ, mv = (μ : EReal) ∧ lv = ((∑ v ∈ range n, Real.exp (F v - μ) : ℝ) : EReal)
    ∧ tv = ((∑ v ∈ range n, (if v = g then F v else 0) : ℝ) : EReal)

/-- A finite sum of real numbers, taken on the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The inner product of real rows, taken on the extended reals over `Fin D`, is the real score. -/
theorem coe_lg (D : ℕ) (x w : ℕ → ℕ → ℝ) (t v : ℕ) :
    (∑ d : Fin D, ((x t d.val : ℝ) : EReal) * ((w v d.val : ℝ) : EReal)) = ((lg D x w t v : ℝ) : EReal) := by
  unfold lg
  rw [← Finset.sum_range (fun d => ((x t d : ℝ) : EReal) * ((w v d : ℝ) : EReal))]
  simp only [← EReal.coe_mul]
  exact coe_sum _ _

/-- The maximum of finitely many real numbers from `⊥` is never `⊤`. -/
theorem fold_max_ne_top {ι : Type*} (s : Finset ι) (L : ι → EReal) (hL : ∀ j, ∃ r : ℝ, L j = (r : EReal)) :
    s.fold max ⊥ L ≠ ⊤ := by
  rw [← lt_top_iff_ne_top, Finset.fold_max_lt]
  refine ⟨bot_lt_top, fun j _ => ?_⟩
  obtain ⟨r, hr⟩ := hL j
  rw [hr]
  exact EReal.coe_lt_top r

/-- The maximum of a real number with anything that is not `⊤` is a real number. -/
theorem max_coe_eq_coe (μ : ℝ) (c : EReal) (hc : c ≠ ⊤) : ∃ μ' : ℝ, max (μ : EReal) c = (μ' : EReal) := by
  induction c using EReal.rec with
  | bot => exact ⟨μ, max_eq_left bot_le⟩
  | coe r =>
    rcases le_total μ r with h | h
    · exact ⟨r, max_eq_right (EReal.coe_le_coe_iff.mpr h)⟩
    · exact ⟨μ, max_eq_left (EReal.coe_le_coe_iff.mpr h)⟩
  | top => exact absurd rfl hc

/-- A shifted exponential sum over at least one column is positive. -/
theorem sum_exp_pos (F : ℕ → ℝ) (N : ℕ) (hN : 0 < N) (μ : ℝ) : 0 < ∑ v ∈ range N, Real.exp (F v - μ) :=
  Finset.sum_pos (fun _ _ => Real.exp_pos _) (Finset.nonempty_range_iff.mpr hN.ne')

/-- `log (∑ exp (F v - μ)) + μ` does not depend on the shift `μ`. -/
theorem log_sum_exp_shift (F : ℕ → ℝ) (N : ℕ) (hN : 0 < N) (μ : ℝ) :
    Real.log (∑ v ∈ range N, Real.exp (F v - μ)) + μ = Real.log (∑ v ∈ range N, Real.exp (F v)) := by
  have hpos : 0 < ∑ v ∈ range N, Real.exp (F v) :=
    Finset.sum_pos (fun _ _ => Real.exp_pos _) (Finset.nonempty_range_iff.mpr hN.ne')
  have hfac : ∑ v ∈ range N, Real.exp (F v - μ) = (∑ v ∈ range N, Real.exp (F v)) * Real.exp (-μ) := by
    rw [Finset.sum_mul]
    refine Finset.sum_congr rfl (fun v _ => ?_)
    rw [← Real.exp_add, sub_eq_add_neg]
  rw [hfac, Real.log_mul hpos.ne' (Real.exp_pos _).ne', Real.log_exp]
  ring

/-- Before any column: any real shift, empty sums. -/
theorem RowInv.init (F : ℕ → ℝ) (g : ℕ) (μ : ℝ) : RowInv F g 0 (μ : EReal) 0 0 := by
  refine ⟨μ, rfl, ?_, ?_⟩
  · rw [Finset.range_zero, Finset.sum_empty, EReal.coe_zero]
  · rw [Finset.range_zero, Finset.sum_empty, EReal.coe_zero]

/-- One chunk of `b` columns `n, …, n + b - 1` with scores `L`: the shift becomes the maximum with the chunk's maximum,
    the carried sum is rescaled and the chunk's exponentials added, the masked sum gains the chunk's masked scores. -/
theorem RowInv.step {F : ℕ → ℝ} {g n : ℕ} {mv lv tv : EReal} (h : RowInv F g n mv lv tv) (b : ℕ)
    (L : Fin b → EReal) (hL : ∀ j, L j = ((F (n + j.val) : ℝ) : EReal))
    (hit : Fin b → Prop) [DecidablePred hit] (hhit : ∀ j, hit j ↔ n + j.val = g) :
    RowInv F g (n + b) (max mv (univ.fold max ⊥ L))
      (lv * Ideal.exp (mv - max mv (univ.fold max ⊥ L)) + ∑ j, Ideal.exp (L j - max mv (univ.fold max ⊥ L)))
      (tv + ∑ j, if hit j then L j else 0) := by
  obtain ⟨μ, rfl, rfl, rfl⟩ := h
  have hcm : univ.fold max ⊥ L ≠ ⊤ := fold_max_ne_top _ _ (fun j => ⟨_, hL j⟩)
  obtain ⟨μ', hμ'⟩ := max_coe_eq_coe μ _ hcm
  rw [hμ']
  refine ⟨μ', rfl, ?_, ?_⟩
  · -- the rescaled carried sum plus the chunk's exponentials is the shifted sum over `n + b` columns
    have hexp : ∀ j : Fin b, Ideal.exp (L j - (μ' : EReal)) = ((Real.exp (F (n + j.val) - μ') : ℝ) : EReal) := by
      intro j
      rw [hL j, ← EReal.coe_sub, Ideal.exp_coe]
    simp only [hexp]
    rw [coe_sum, ← EReal.coe_sub, Ideal.exp_coe, ← EReal.coe_mul, ← EReal.coe_add]
    congr 1
    rw [Finset.sum_range_add, ← Finset.sum_range (fun i => Real.exp (F (n + i) - μ')), Finset.sum_mul]
    congr 1
    refine Finset.sum_congr rfl (fun v _ => ?_)
    rw [← Real.exp_add, sub_add_sub_cancel]
  · -- the chunk's masked scores are the masked terms of columns `n, …, n + b - 1`
    have hmask : ∀ j : Fin b, (if hit j then L j else 0)
        = (((if n + j.val = g then F (n + j.val) else 0 : ℝ)) : EReal) := by
      intro j
      by_cases hj : n + j.val = g
      · rw [if_pos ((hhit j).mpr hj), if_pos hj, hL j]
      · rw [if_neg (fun hh => hj ((hhit j).mp hh)), if_neg hj, EReal.coe_zero]
    simp only [hmask]
    rw [coe_sum, ← EReal.coe_add]
    congr 1
    rw [Finset.sum_range_add, ← Finset.sum_range (fun i => if n + i = g then F (n + i) else 0)]

/-- After all `N` columns the state gives the row's loss, whatever the shift ended as. -/
theorem RowInv.final {F : ℕ → ℝ} {g N : ℕ} {mv lv tv : EReal} (h : RowInv F g N mv lv tv) (hN : 0 < N) (hg : g < N) :
    Ideal.log lv + mv - tv = ((rowLoss F g N : ℝ) : EReal) := by
  obtain ⟨μ, rfl, rfl, rfl⟩ := h
  have hpos := sum_exp_pos F N hN μ
  have hmask : (∑ v ∈ range N, (if v = g then F v else 0)) = F g := by
    rw [Finset.sum_ite_eq', if_pos (Finset.mem_range.mpr hg)]
  rw [Ideal.log_coe, if_neg (not_le.mpr hpos), hmask, ← EReal.coe_add, ← EReal.coe_sub,
    log_sum_exp_shift F N hN μ]
  rfl

/-- The one-pass form: shift by the maximum of the whole row (from `⊥`), sum, take the logarithm, add the shift back,
    subtract the target's score. -/
theorem ref_row (F : ℕ → ℝ) (g N : ℕ) (hN : 0 < N) (hg : g < N) :
    Ideal.log (∑ v : Fin N, Ideal.exp (((F v.val : ℝ) : EReal) - univ.fold max ⊥ (fun v : Fin N => ((F v.val : ℝ) : EReal))))
      + univ.fold max ⊥ (fun v : Fin N => ((F v.val : ℝ) : EReal)) - ((F g : ℝ) : EReal) = ((rowLoss F g N : ℝ) : EReal) := by
  -- the row's maximum is a real number: not `⊤` as a maximum of reals, not `⊥` as column `0` lies below it
  have hne_top : univ.fold max ⊥ (fun v : Fin N => ((F v.val : ℝ) : EReal)) ≠ ⊤ :=
    fold_max_ne_top _ _ (fun v => ⟨_, rfl⟩)
  have hne_bot : univ.fold max ⊥ (fun v : Fin N => ((F v.val : ℝ) : EReal)) ≠ ⊥ := by
    intro hbot
    have hle : ((F 0 : ℝ) : EReal) ≤ univ.fold max ⊥ (fun v : Fin N => ((F v.val : ℝ) : EReal)) :=
      (Finset.le_fold_max _).mpr (Or.inr ⟨⟨0, hN⟩, Finset.mem_univ _, le_refl _⟩)
    rw [hbot, le_bot_iff] at hle
    exact EReal.coe_ne_bot _ hle
  obtain ⟨M, hM⟩ : ∃ M : ℝ, univ.fold max ⊥ (fun v : Fin N => ((F v.val : ℝ) : EReal)) = (M : EReal) :=
    ⟨_, (EReal.coe_toReal hne_top hne_bot).symm⟩
  rw [hM]
  have hexp : ∀ v : Fin N, Ideal.exp (((F v.val : ℝ) : EReal) - (M : EReal)) = ((Real.exp (F v.val - M) : ℝ) : EReal) := by
    intro v
    rw [← EReal.coe_sub, Ideal.exp_coe]
  simp only [hexp]
  rw [coe_sum, ← Finset.sum_range (fun v => Real.exp (F v - M))]
  have hpos := sum_exp_pos F N hN M
  rw [Ideal.log_coe, if_neg (not_le.mpr hpos), ← EReal.coe_add, ← EReal.coe_sub,
    log_sum_exp_shift F N hN M]
  rfl

end Cert.Lse

end
-- ==== Proof.Spec.lean ====
/-
  What both programs compute, as one real number of the argument arrays.

  For finite inputs `X` (tokens × features) and `W` (vocabulary × features) and target indices `T` below the vocabulary
  size, token `t` has the scores `score t v = ∑ d, X t d · W v d`, and its loss is the log-sum-exp of its scores minus the
  score of its target; the result is the sum of the losses over the tokens. The arrays are read as real numbers
  (`real2`: the real part of an entry, an entry of a finite array being a real number) and natural numbers (`nat1`).
-/
import proofs.«430093_j77902116814964_3_alg».proof.Proof.Lse
import Idealize.ShloMosaic.Lib.ValueIdx

noncomputable section

namespace Cert.Spec

open Finset Idealize.ShloMosaic Idealize.ShloMosaic.ValueIdx

/-- An `A × B` array of extended reals. -/
abbrev Mat (A B : ℕ) : Type := (⟨2, ![A, B]⟩ : Shape).Idx → EReal
/-- A length-`A` array of 32-bit words. -/
abbrev Words (A : ℕ) : Type := (⟨1, ![A]⟩ : Shape).Idx → BitVec 32

/-- Entry `(a, b)` as a real number (zero outside the array). -/
def real2 {A B : ℕ} (X : Mat A B) (a b : ℕ) : ℝ :=
  if h : a < A ∧ b < B then (X (ix2 ⟨a, h.1⟩ ⟨b, h.2⟩)).toReal else 0

/-- Entry `a` as a natural number (zero outside the array). -/
def nat1 {A : ℕ} (T : Words A) (a : ℕ) : ℕ :=
  if h : a < A then (T (ix1 ⟨a, h⟩)).toNat else 0

/-- Every entry is a real number. -/
def Finite {A B : ℕ} (X : Mat A B) : Prop := ∀ i, ∃ r : ℝ, X i = (r : EReal)

/-- Every entry, read unsigned, is below `N`. -/
def Below {A : ℕ} (T : Words A) (N : ℕ) : Prop := ∀ i, (T i).toNat < N

theorem real2_eq {A B : ℕ} {X : Mat A B} (hX : Finite X) (p : Fin A) (q : Fin B) :
    X (ix2 p q) = ((real2 X p.val q.val : ℝ) : EReal) := by
  obtain ⟨r, hr⟩ := hX (ix2 p q)
  unfold real2
  rw [dif_pos ⟨p.isLt, q.isLt⟩]
  show X (ix2 p q) = _
  rw [hr, EReal.toReal_coe]

theorem nat1_eq {A : ℕ} (T : Words A) (p : Fin A) : nat1 T p.val = (T (ix1 p)).toNat := by
  unfold nat1
  rw [dif_pos p.isLt]

theorem nat1_lt {A N : ℕ} {T : Words A} (hT : Below T N) (hN : 0 < N) (a : ℕ) : nat1 T a < N := by
  unfold nat1
  split
  · exact hT _
  · exact hN

/-- Token `t`'s score against vocabulary row `v`. -/
def score (X : Mat 8192 1024) (W : Mat 32000 1024) (t v : ℕ) : ℝ := Lse.lg 1024 (real2 X) (real2 W) t v

/-- Token `t`'s loss: log-sum-exp of its scores minus its target's score. -/
def tokenLoss (X : Mat 8192 1024) (W : Mat 32000 1024) (T : Words 8192) (t : ℕ) : ℝ :=
  Lse.rowLoss (score X W t) (nat1 T t) 32000

/-- The sum of the tokens' losses. -/
def total (X : Mat 8192 1024) (W : Mat 32000 1024) (T : Words 8192) : ℝ := ∑ t ∈ range 8192, tokenLoss X W T t

/-- The result array: the one entry of a rank-0 array. -/
def result (X : Mat 8192 1024) (W : Mat 32000 1024) (T : Words 8192) : (⟨0, ![]⟩ : Shape).Idx → EReal :=
  fun _ => (total X W T : EReal)

end Cert.Spec

end
-- ==== Proof.KBlocks.lean ====
/-
  What the kernel's input blocks hold at a grid point, in terms of the program's argument arrays.

  The grid is 8 token tiles × 25 vocabulary chunks, point `t` being tile `t / 25`, chunk `t % 25`. Before the region the
  host narrows the two float arrays (the identity on the extended reals), clamps the target indices to `[0, 31999]` and
  reshapes them to a column. The block of window 0 at `t` is rows `1024 · (t / 25) + r` of the tokens, that of window 1 rows
  `1280 · (t % 25) + j` of the vocabulary, that of window 2 the same token rows of the target column; on targets already in
  range the clamp is the identity.
-/
import proofs.«430093_j77902116814964_3_alg».proof.Proof.Gen.KernelIdeal.Frame
import proofs.«430093_j77902116814964_3_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.KB

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen

/-! ## The grid's index maps -/

theorem idx0 : ∀ t : Fin cfg0.N, win0_0.index t (0 : Fin 2) = t.val / 25 ∧ win0_0.index t (1 : Fin 2) = 0 :=
  (by decide +kernel : ∀ t : Fin grid0.N, win0_0.index t (0 : Fin 2) = t.val / 25 ∧ win0_0.index t (1 : Fin 2) = 0)
theorem idx1 : ∀ t : Fin cfg0.N, win0_1.index t (0 : Fin 2) = t.val % 25 ∧ win0_1.index t (1 : Fin 2) = 0 :=
  (by decide +kernel : ∀ t : Fin grid0.N, win0_1.index t (0 : Fin 2) = t.val % 25 ∧ win0_1.index t (1 : Fin 2) = 0)
theorem idx2 : ∀ t : Fin cfg0.N, win0_2.index t (0 : Fin 2) = t.val / 25 ∧ win0_2.index t (1 : Fin 2) = 0 :=
  (by decide +kernel : ∀ t : Fin grid0.N, win0_2.index t (0 : Fin 2) = t.val / 25 ∧ win0_2.index t (1 : Fin 2) = 0)
theorem idx3 : ∀ t : Fin cfg0.N, win0_3.index t (0 : Fin 2) = t.val / 25 ∧ win0_3.index t (1 : Fin 2) = 0 :=
  (by decide +kernel : ∀ t : Fin grid0.N, win0_3.index t (0 : Fin 2) = t.val / 25 ∧ win0_3.index t (1 : Fin 2) = 0)
/-- The chunk's column offset as the body computes it: the chunk number times 1280, as a 32-bit word. -/
theorem offset_word : ∀ t : Fin cfg0.N,
    Scalar.muli (BitVec.ofNat 32 (grid0.coords t 1).val) 1280#32 = BitVec.ofNat 32 (1280 * (t.val % 25)) :=
  (by decide +kernel : ∀ t : Fin grid0.N,
    Scalar.muli (BitVec.ofNat 32 (grid0.coords t 1).val) 1280#32 = BitVec.ofNat 32 (1280 * (t.val % 25)))

section Generic

variable {F : FTy → Type} [FloatOps F]
variable (m : (ℓ : Loc nD τ sig) → Buf (Elt F) ℓ)

/-- The target indices clamped to the table: `min 31999 (max 0 ·)`, signed. -/
def clipT (T : IVec S8192 32) : IVec S8192 32 :=
  minsi (broadcastInDim S8192 ![] Facts₀.bcast_S_S8192 (constantI S_ 32 31999#32))
    (maxsi (broadcastInDim S8192 ![] Facts₀.bcast_S_S8192 (constantI S_ 32 0#32)) T)

/-! ## The arrays as the region finds them -/

theorem v0_eq (c : Dev nD) : (V m c main_v0 : S8192x1024.Idx → F .bf16)
    = truncf .bf16 (m ((c.tc : Thread nD τ).loc main_arg0)) Facts₀.bitsLt_bf16_f32 := by
  dsimp only [V, V0]
  simp only [hostOps0, hostOps0_1, hostOps0_2, List.flatten_cons, List.flatten_nil, List.append_nil, List.cons_append, List.nil_append]
  after_results

theorem v1_eq (c : Dev nD) : (V m c main_v1 : S32000x1024.Idx → F .bf16)
    = truncf .bf16 (m ((c.tc : Thread nD τ).loc main_arg1)) Facts₀.bitsLt_bf16_f32 := by
  dsimp only [V, V0]
  simp only [hostOps0, hostOps0_1, hostOps0_2, List.flatten_cons, List.flatten_nil, List.append_nil, List.cons_append, List.nil_append]
  after_results

theorem v3_eq (c : Dev nD) : (V m c main_v3 : S8192x1.Idx → BitVec 32)
    = shapeCast S8192x1 (clipT (m ((c.tc : Thread nD τ).loc main_arg2))) Facts₀.shapeCasts_S8192_S8192x1 := by
  dsimp only [V, V0]
  simp only [hostOps0, hostOps0_1, hostOps0_2, List.flatten_cons, List.flatten_nil, List.append_nil, List.cons_append, List.nil_append]
  after_results
  rfl

/-! ## The blocks read at an index -/

theorem xblk_apply (c : Dev nD) (t : Fin cfg0.N) (r : Fin 1024) (d : Fin 1024) (h : 1024 * (t.val / 25) + r.val < 8192) :
    (iblk m c 0 t : Vec F S1024x1024 .bf16) (ix2 r d)
      = (V m c main_v0 : S8192x1024.Idx → F .bf16) (ix2 ⟨1024 * (t.val / 25) + r.val, h⟩ d) := by
  unfold iblk
  rw [View.read_apply]
  show V m c main_v0 _ = V m c main_v0 _
  congr 1
  funext a
  apply Fin.ext
  match a with
  | ⟨0, _⟩ => show win0_0.index t 0 * 1024 + 1 * r.val = 1024 * (t.val / 25) + r.val; rw [(idx0 t).1]; omega
  | ⟨1, _⟩ => show win0_0.index t 1 * 1024 + 1 * d.val = d.val; rw [(idx0 t).2]; omega

theorem wblk_apply (c : Dev nD) (t : Fin cfg0.N) (j : Fin 1280) (d : Fin 1024) (h : 1280 * (t.val % 25) + j.val < 32000) :
    (iblk m c 1 t : Vec F S1280x1024 .bf16) (ix2 j d)
      = (V m c main_v1 : S32000x1024.Idx → F .bf16) (ix2 ⟨1280 * (t.val % 25) + j.val, h⟩ d) := by
  unfold iblk
  rw [View.read_apply]
  show V m c main_v1 _ = V m c main_v1 _
  congr 1
  funext a
  apply Fin.ext
  match a with
  | ⟨0, _⟩ => show win0_1.index t 0 * 1280 + 1 * j.val = 1280 * (t.val % 25) + j.val; rw [(idx1 t).1]; omega
  | ⟨1, _⟩ => show win0_1.index t 1 * 1024 + 1 * d.val = d.val; rw [(idx1 t).2]; omega

theorem tblk_apply (c : Dev nD) (t : Fin cfg0.N) (r : Fin 1024) (h : 1024 * (t.val / 25) + r.val < 8192) :
    (iblk m c 2 t : Vec F S1024x1 .i32) (ix2 r (0 : Fin 1))
      = (V m c main_v3 : S8192x1.Idx → BitVec 32) (ix2 ⟨1024 * (t.val / 25) + r.val, h⟩ (0 : Fin 1)) := by
  unfold iblk
  rw [View.read_apply]
  show V m c main_v3 _ = V m c main_v3 _
  congr 1
  funext a
  apply Fin.ext
  match a with
  | ⟨0, _⟩ => show win0_2.index t 0 * 1024 + 1 * r.val = 1024 * (t.val / 25) + r.val; rw [(idx2 t).1]; omega
  | ⟨1, _⟩ => show win0_2.index t 1 * 1 + 1 * 0 = 0; rw [(idx2 t).2]

/-- The column reshape read at row `p`. -/
theorem column_apply (v : IVec S8192 32) (p : Fin 8192) :
    shapeCast S8192x1 v Facts₀.shapeCasts_S8192_S8192x1 (ix2 p (0 : Fin 1)) = v (ix1 p) := by
  refine shapeCast_apply v _ _ (ix1 p) ?_
  rw [Shape.rowMajor_val_one, Shape.rowMajor_val_two]
  show p.val = p.val * 1 + 0
  omega

/-- On a target already in the table the clamp is the identity. -/
theorem clipT_apply (T : IVec S8192 32) (p : Fin 8192) (h : (T (ix1 p)).toNat < 32000) : clipT T (ix1 p) = T (ix1 p) := by
  unfold clipT minsi maxsi broadcastInDim constantI IntOp.minsi IntOp.maxsi
  simp only [BitVec.slt, BitVec.toInt]
  have h2 : (T (ix1 p)).toNat < 2 ^ 32 := (T (ix1 p)).isLt
  split_ifs <;> first | rfl | (exfalso; simp at * <;> omega)

end Generic

/-! ## At the extended reals: the blocks as real numbers and words -/

section AtIdeal

variable (m : (ℓ : Loc nD τ sig) → Buf (Elt Ideal) ℓ)

/-- The three argument arrays of device `c`. -/
abbrev argX (c : Dev nD) : Cert.Spec.Mat 8192 1024 := m ((c.tc : Thread nD τ).loc main_arg0)
abbrev argW (c : Dev nD) : Cert.Spec.Mat 32000 1024 := m ((c.tc : Thread nD τ).loc main_arg1)
abbrev argT (c : Dev nD) : Cert.Spec.Words 8192 := m ((c.tc : Thread nD τ).loc main_arg2)

theorem xblk_real (c : Dev nD) (hX : Cert.Spec.Finite (argX m c)) (t : Fin cfg0.N) (r : Fin 1024) (d : Fin 1024) :
    (iblk m c 0 t : Vec Ideal S1024x1024 .bf16) (ix2 r d)
      = ((Cert.Spec.real2 (argX m c) (1024 * (t.val / 25) + r.val) d.val : ℝ) : EReal) := by
  have hN : t.val < 200 := lt_of_lt_of_eq t.isLt (show cfg0.N = 200 from N_0)
  have h : 1024 * (t.val / 25) + r.val < 8192 := by have := r.isLt; omega
  rw [xblk_apply m c t r d h, v0_eq]
  exact Cert.Spec.real2_eq hX ⟨1024 * (t.val / 25) + r.val, h⟩ d

theorem wblk_real (c : Dev nD) (hW : Cert.Spec.Finite (argW m c)) (t : Fin cfg0.N) (j : Fin 1280) (d : Fin 1024) :
    (iblk m c 1 t : Vec Ideal S1280x1024 .bf16) (ix2 j d)
      = ((Cert.Spec.real2 (argW m c) (1280 * (t.val % 25) + j.val) d.val : ℝ) : EReal) := by
  have h : 1280 * (t.val % 25) + j.val < 32000 := by have := j.isLt; have := Nat.mod_lt t.val (by decide : 25 > 0); omega
  rw [wblk_apply m c t j d h, v1_eq]
  exact Cert.Spec.real2_eq hW ⟨1280 * (t.val % 25) + j.val, h⟩ d

theorem tblk_word (c : Dev nD) (hT : Cert.Spec.Below (argT m c) 32000) (t : Fin cfg0.N) (r : Fin 1024) :
    (iblk m c 2 t : Vec Ideal S1024x1 .i32) (ix2 r (0 : Fin 1))
      = BitVec.ofNat 32 (Cert.Spec.nat1 (argT m c) (1024 * (t.val / 25) + r.val)) := by
  have hN : t.val < 200 := lt_of_lt_of_eq t.isLt (show cfg0.N = 200 from N_0)
  have h : 1024 * (t.val / 25) + r.val < 8192 := by have := r.isLt; omega
  rw [tblk_apply m c t r h, v3_eq, column_apply, clipT_apply _ _ (hT _),
    Cert.Spec.nat1_eq (argT m c) ⟨1024 * (t.val / 25) + r.val, h⟩, BitVec.ofNat_toNat, BitVec.setWidth_eq]

end AtIdeal

end Cert.KernelIdeal.KB

end
-- ==== Proof.PayAt.lean ====
/-
  The kernel body's stored values read at a row, on the extended reals.

  At one grid point the body holds a block `x0` of 1024 token rows, a block `x1` of 1280 vocabulary rows and the rows'
  target indices; it forms the 1024 × 1280 scores, and per row updates a running shift, a running shifted exponential sum
  and a running masked sum of the scores (the mask: the chunk-local column equals the target minus the chunk's offset),
  and at the last chunk stores `log l + m - ts`. Read at row `r`, for rows that are real numbers, these are the steps of
  the chunked log-sum-exp.
-/
import proofs.«430093_j77902116814964_3_alg».proof.Proof.Gen.KernelIdeal.Skeleton
import proofs.«430093_j77902116814964_3_alg».proof.Proof.Lse
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayAt

open Idealize.ShloMosaic Idealize.ShloMosaic.ValueIdx
open Cert.KernelIdeal Cert.KernelIdeal.Gen Cert.Lse

/-! ## The scores -/

theorem lhs6_0 (i : S1024x1280.Idx) (q : dot_S1024x1024_S1280x1024_S1024x1280_1_1_0_0_n_n.contr.Idx) :
    (dot_S1024x1024_S1280x1024_S1024x1280_1_1_0_0_n_n.lhsIdx i q 0).val = (i 0).val := by
  unfold DotDims.lhsIdx
  rw [dif_neg (show ¬(0 : Fin S1024x1024.rank) ∈ dot_S1024x1024_S1280x1024_S1024x1280_1_1_0_0_n_n.lhsBatch by decide),
    dif_pos (show (0 : Fin S1024x1024.rank) ∈ dot_S1024x1024_S1280x1024_S1024x1280_1_1_0_0_n_n.lhsNonContracting by decide)]
  rfl

theorem lhs6_1 (i : S1024x1280.Idx) (q : dot_S1024x1024_S1280x1024_S1024x1280_1_1_0_0_n_n.contr.Idx) :
    (dot_S1024x1024_S1280x1024_S1024x1280_1_1_0_0_n_n.lhsIdx i q 1).val = (q ⟨0, by decide⟩).val :=
  dot_S1024x1024_S1280x1024_S1024x1280_1_1_0_0_n_n.lhsIdx_val_of_single rfl i q

theorem rhs6_0 (i : S1024x1280.Idx) (q : dot_S1024x1024_S1280x1024_S1024x1280_1_1_0_0_n_n.contr.Idx) :
    (dot_S1024x1024_S1280x1024_S1024x1280_1_1_0_0_n_n.rhsIdx i q 0).val = (i 1).val := by
  unfold DotDims.rhsIdx
  rw [dif_neg (show ¬(0 : Fin S1280x1024.rank) ∈ dot_S1024x1024_S1280x1024_S1024x1280_1_1_0_0_n_n.rhsBatch by decide),
    dif_pos (show (0 : Fin S1280x1024.rank) ∈ dot_S1024x1024_S1280x1024_S1024x1280_1_1_0_0_n_n.rhsNonContracting by decide)]
  rfl

theorem rhs6_1 (i : S1024x1280.Idx) (q : dot_S1024x1024_S1280x1024_S1024x1280_1_1_0_0_n_n.contr.Idx) :
    (dot_S1024x1024_S1280x1024_S1024x1280_1_1_0_0_n_n.rhsIdx i q 1).val = (q ⟨0, by decide⟩).val :=
  dot_S1024x1024_S1280x1024_S1024x1280_1_1_0_0_n_n.rhsIdx_val_of_single rfl i q

/-- The score block at `(r, j)`: the inner product of row `r` of the token block with row `j` of the vocabulary block. -/
theorem pay6_apply (x0 : Vec Ideal S1024x1024 .bf16) (x1 : Vec Ideal S1280x1024 .bf16) (r : Fin 1024) (j : Fin 1280) :
    k0_pay6 (F := Ideal) x0 x1 (ix2 r j) = ∑ d : Fin 1024, x0 (ix2 r d) * x1 (ix2 j d) := by
  unfold k0_pay6
  rw [shapeCast_self, shapeCast_self]
  simp only [matmul]
  rw [Ideal.matmul_constant_zero_apply,
    ← Equiv.sum_comp (contrEquiv1 dot_S1024x1024_S1280x1024_S1024x1280_1_1_0_0_n_n 1024 rfl rfl).symm]
  refine Finset.sum_congr rfl fun k _ => ?_
  have hk := contrEquiv1_symm_val dot_S1024x1024_S1280x1024_S1024x1280_1_1_0_0_n_n 1024 rfl rfl k
  have el : dot_S1024x1024_S1280x1024_S1024x1280_1_1_0_0_n_n.lhsIdx (ix2 r j)
      ((contrEquiv1 dot_S1024x1024_S1280x1024_S1024x1280_1_1_0_0_n_n 1024 rfl rfl).symm k) = ix2 r k :=
    funext fun a => Fin.ext (by
      match a with
      | ⟨0, _⟩ => exact lhs6_0 _ _
      | ⟨1, _⟩ => exact (lhs6_1 _ _).trans hk)
  have er : dot_S1024x1024_S1280x1024_S1024x1280_1_1_0_0_n_n.rhsIdx (ix2 r j)
      ((contrEquiv1 dot_S1024x1024_S1280x1024_S1024x1280_1_1_0_0_n_n 1024 rfl rfl).symm k) = ix2 j k :=
    funext fun a => Fin.ext (by
      match a with
      | ⟨0, _⟩ => exact rhs6_0 _ _
      | ⟨1, _⟩ => exact (rhs6_1 _ _).trans hk)
  rw [el, er]

/-! ## Layout reads at a row -/

/-- A `[1024]` vector viewed `[1024, 1]` reads its entry `r` at `(r, 0)`. -/
theorem shapeCast_col_apply {α : Type} (x : S1024.Idx → α) (h : S1024.ShapeCasts S1024x1) (r : Fin 1024) :
    shapeCast S1024x1 x h (ix2 r (0 : Fin 1)) = x (ix1 r) :=
  shapeCast_apply x h _ _ (by
    rw [Shape.rowMajor_val_two, Shape.rowMajor_val_one]
    show r.val = r.val * 1 + 0
    omega)

/-- A `[1024, 1]` column broadcast along the 1280 columns reads its entry `(r, 0)` at `(r, j)`. -/
theorem bcast_col_apply {α : Type} (x : S1024x1.Idx → α) (h : S1024x1.Broadcasts S1024x1280) (r : Fin 1024) (j : Fin 1280) :
    broadcastTo S1024x1280 x h (ix2 r j) = x (ix2 r (0 : Fin 1)) :=
  broadcastTo_apply x h _ _ (fun a => by
    match a with
    | ⟨0, _⟩ => rfl
    | ⟨1, _⟩ => rfl)

/-- The index of the score block over row `r` with column `j` put back. -/
theorem lift_row (r : Fin 1024) (j : Fin 1280) :
    reduces_S1024x1280_S1024.lift (ix1 r) j = ix2 r j := by
  funext c
  apply Fin.ext
  match c with
  | ⟨0, _⟩ => rfl
  | ⟨1, _⟩ => rfl

/-- The pattern of `-∞`. -/
theorem ofBits_neg_inf : Ideal.ofBits .f32 0xFF800000#32 = ⊥ := by simp [Ideal.ofBits, Ideal.ieee]

/-! ## The running shift -/

theorem pay7_apply (x0 : Vec Ideal S1024x1024 .bf16) (x1 : Vec Ideal S1280x1024 .bf16) (mo : Vec Ideal S1024x1 .f32) (r : Fin 1024) :
    k0_pay7 (F := Ideal) x0 x1 mo (ix2 r (0 : Fin 1))
      = max (mo (ix2 r (0 : Fin 1))) (Finset.univ.fold max ⊥ fun j : Fin 1280 => k0_pay6 (F := Ideal) x0 x1 (ix2 r j)) := by
  unfold k0_pay7
  rw [maximumf_apply, shapeCast_col_apply]
  refine (congrArg (max (mo (ix2 r (0 : Fin 1))))
    (Ideal.multiReduction_maximumf_single (k0_pay6 (F := Ideal) x0 x1) 0xFF800000#32 reduces_S1024x1280_S1024 (.inl rfl) rfl (ix1 r))).trans ?_
  have hfun : (k0_pay6 (F := Ideal) x0 x1 ∘ reduces_S1024x1280_S1024.lift (ix1 r))
      = fun j : Fin 1280 => k0_pay6 (F := Ideal) x0 x1 (ix2 r j) :=
    funext fun j => congrArg (k0_pay6 (F := Ideal) x0 x1) (lift_row r j)
  rw [hfun]
  show max _ (Finset.univ.fold max (Ideal.ofBits .f32 0xFF800000#32) _) = _
  rw [ofBits_neg_inf]
  rfl

theorem pay9_apply (x0 : Vec Ideal S1024x1024 .bf16) (x1 : Vec Ideal S1280x1024 .bf16) (mo : Vec Ideal S1024x1 .f32) :
    k0_pay9 (F := Ideal) x0 x1 mo = k0_pay7 (F := Ideal) x0 x1 mo := by
  unfold k0_pay9
  rw [shapeCast_self]

/-! ## The running sum -/

theorem pay8_apply (x0 : Vec Ideal S1024x1024 .bf16) (x1 : Vec Ideal S1280x1024 .bf16) (mo m2 lo : Vec Ideal S1024x1 .f32)
    (r : Fin 1024) :
    k0_pay8 (F := Ideal) x0 x1 mo m2 lo (ix2 r (0 : Fin 1))
      = lo (ix2 r (0 : Fin 1)) * Ideal.exp (m2 (ix2 r (0 : Fin 1)) - k0_pay7 (F := Ideal) x0 x1 mo (ix2 r (0 : Fin 1)))
        + ∑ j : Fin 1280, Ideal.exp (k0_pay6 (F := Ideal) x0 x1 (ix2 r j) - k0_pay7 (F := Ideal) x0 x1 mo (ix2 r (0 : Fin 1))) := by
  unfold k0_pay8
  rw [shapeCast_self, addf_apply, mulf_apply, shapeCast_col_apply]
  refine congrArg₂ (· + ·) rfl ?_
  refine (Ideal.multiReduction_add_single _ 0x00000000#32 reduces_S1024x1280_S1024 (.inl rfl) rfl (ix1 r)).trans ?_
  refine Finset.sum_congr rfl fun j _ => ?_
  rw [lift_row r j]
  exact congrArg (fun z => Ideal.exp (k0_pay6 (F := Ideal) x0 x1 (ix2 r j) - z))
    (bcast_col_apply (k0_pay7 (F := Ideal) x0 x1 mo) broadcasts_S1024x1_S1024x1280 r j)

/-! ## The running masked sum -/

/-- A comparison word for equality is set exactly when the words are equal. -/
theorem cmpi_eq_one_iff {w : Nat} (a b : BitVec w) : IntOp.cmpi .eq a b = 1 ↔ a = b := by
  show BitVec.ofBool (a == b) = 1#1 ↔ a = b
  by_cases h : a = b
  · subst h; simp
  · have hb : (a == b) = false := by simpa using h
    rw [hb]
    exact ⟨fun h' => absurd h' (by decide), fun h' => absurd h' h⟩

theorem pay1_apply (v7 : FVec Ideal S1024x1280 .f32) (tg : IVec S1024x1 32) (kk : BitVec 32) (so : Vec Ideal S1024x1 .f32)
    (r : Fin 1024) :
    k0_pay1 (F := Ideal) v7 (iota .tc S1024x1280 32 [1] Facts₀.iota_S1024x1280_d1_w32) tg kk so (ix2 r (0 : Fin 1))
      = so (ix2 r (0 : Fin 1))
        + ∑ j : Fin 1280, if BitVec.ofNat 32 j.val = tg (ix2 r (0 : Fin 1)) - kk then v7 (ix2 r j) else 0 := by
  unfold k0_pay1
  rw [shapeCast_self, addf_apply, shapeCast_col_apply]
  refine congrArg₂ (· + ·) rfl ?_
  refine (Ideal.multiReduction_add_single _ 0x00000000#32 reduces_S1024x1280_S1024 (.inl rfl) rfl (ix1 r)).trans ?_
  refine Finset.sum_congr rfl fun j _ => ?_
  rw [lift_row r j, select_apply]
  have hi : iota .tc S1024x1280 32 [1] Facts₀.iota_S1024x1280_d1_w32 (ix2 r j) = BitVec.ofNat 32 j.val :=
    iota_single_apply _ _ _ _ _ _
  have hb : broadcastTo S1024x1280 (subi tg (broadcast S1024x1 kk)) broadcasts_S1024x1_S1024x1280 (ix2 r j)
      = tg (ix2 r (0 : Fin 1)) - kk := bcast_col_apply _ _ r j
  show Scalar.select (IntOp.cmpi .eq (iota .tc S1024x1280 32 [1] Facts₀.iota_S1024x1280_d1_w32 (ix2 r j))
      (broadcastTo S1024x1280 (subi tg (broadcast S1024x1 kk)) broadcasts_S1024x1_S1024x1280 (ix2 r j)))
    (v7 (ix2 r j)) (Ideal.ofBits .f32 0x00000000#32) = _
  rw [hi, hb, Ideal.ofBits_zero_f32]
  unfold Scalar.select
  by_cases h : BitVec.ofNat 32 j.val = tg (ix2 r (0 : Fin 1)) - kk
  · exact (if_pos ((cmpi_eq_one_iff _ _).mpr h)).trans (if_pos h).symm
  · exact (if_neg (fun h' => h ((cmpi_eq_one_iff _ _).mp h'))).trans (if_neg h).symm

/-- The chunk-local column equals the target minus the chunk's offset exactly at the target's column. -/
theorem mask_iff (j g n : ℕ) (hj : j < 1280) (hg : g < 32000) (hn : n + 1280 ≤ 32000) :
    BitVec.ofNat 32 j = BitVec.ofNat 32 g - BitVec.ofNat 32 n ↔ n + j = g := by
  rw [← BitVec.toNat_inj, BitVec.toNat_sub, BitVec.toNat_ofNat, BitVec.toNat_ofNat, BitVec.toNat_ofNat]
  omega

/-! ## The last store and the first stores -/

theorem pay2_apply (l m t : Vec Ideal S1024x1 .f32) (i : S1024x1.Idx) :
    k0_pay2 (F := Ideal) l m t i = Ideal.log (l i) + m i - t i := rfl

theorem pay3_apply (i : S1024x1.Idx) : k0_pay3 (F := Ideal) i = Ideal.ofBits .f32 0xF149F2CA#32 := by
  unfold k0_pay3
  rw [shapeCast_self]
  rfl

theorem pay4_apply (i : S1024x1.Idx) : k0_pay4 (F := Ideal) i = 0 := by
  unfold k0_pay4
  rw [shapeCast_self]
  exact Ideal.ofBits_zero_f32

theorem pay5_apply (i : S1024x1.Idx) : k0_pay5 (F := Ideal) i = 0 := by
  unfold k0_pay5
  rw [shapeCast_self]
  exact Ideal.ofBits_zero_f32

/-- A pattern whose exponent field is not all ones denotes a real number. -/
theorem ieee_coe_of_ne (e m : ℕ) {w : ℕ} (b : BitVec w) (h : (b.extractLsb' m e).toNat ≠ 2 ^ e - 1) :
    ∃ μ : ℝ, Ideal.ieee e m b = (μ : EReal) := by
  unfold Ideal.ieee
  simp only []
  rw [if_neg h]
  split_ifs <;> exact ⟨_, rfl⟩

/-- The stored initial shift is a real number. -/
theorem init_shift_coe : ∃ μ : ℝ, Ideal.ofBits .f32 0xF149F2CA#32 = (μ : EReal) :=
  show ∃ μ : ℝ, Ideal.ieee 8 23 (0xF149F2CA#32 : BitVec 32) = (μ : EReal) from
    ieee_coe_of_ne 8 23 (0xF149F2CA#32 : BitVec 32) (by decide)

/-! ## The three steps at a row -/

theorem pay10_eq (tg : Vec Ideal S1024x1 .i32) : k0_pay10 (F := Ideal) tg = tg := by
  unfold k0_pay10
  rw [shapeCast_self]

/-- The start of a token tile's pass: the stored initial shift is a real number, the two sums start at zero. -/
theorem row_init (F : ℕ → ℝ) (g : ℕ) (r : Fin 1024) :
    RowInv F g 0 (k0_pay3 (F := Ideal) (ix2 r (0 : Fin 1))) (k0_pay4 (F := Ideal) (ix2 r (0 : Fin 1)))
      (k0_pay5 (F := Ideal) (ix2 r (0 : Fin 1))) := by
  obtain ⟨μ, hμ⟩ := init_shift_coe
  rw [pay3_apply, pay4_apply, pay5_apply, hμ]
  exact RowInv.init F g μ

/-- One chunk, at row `r`: with the token's features `x tok ·` in row `r` of `x0`, the vocabulary rows `n, …, n + 1279` in
    `x1`, the row's target `g` and the chunk's offset `n` as 32-bit words, the three stored values carry the state from
    `n` columns to `n + 1280`. -/
theorem row_step (x0 : Vec Ideal S1024x1024 .bf16) (x1 : Vec Ideal S1280x1024 .bf16) (mo lo so : Vec Ideal S1024x1 .f32)
    (tg : Vec Ideal S1024x1 .i32) (kk : BitVec 32) (r : Fin 1024) (x w : ℕ → ℕ → ℝ) (tok g n : ℕ)
    (hx : ∀ d : Fin 1024, x0 (ix2 r d) = ((x tok d.val : ℝ) : EReal))
    (hw : ∀ (j : Fin 1280) (d : Fin 1024), x1 (ix2 j d) = ((w (n + j.val) d.val : ℝ) : EReal))
    (htg : tg (ix2 r (0 : Fin 1)) = BitVec.ofNat 32 g) (hkk : kk = BitVec.ofNat 32 n) (hg : g < 32000) (hn : n + 1280 ≤ 32000)
    (h : RowInv (lg 1024 x w tok) g n (mo (ix2 r (0 : Fin 1))) (lo (ix2 r (0 : Fin 1))) (so (ix2 r (0 : Fin 1)))) :
    RowInv (lg 1024 x w tok) g (n + 1280)
      (k0_pay9 (F := Ideal) x0 x1 mo (ix2 r (0 : Fin 1)))
      (k0_pay8 (F := Ideal) x0 x1 mo mo lo (ix2 r (0 : Fin 1)))
      (k0_pay1 (F := Ideal) (k0_pay6 x0 x1) (iota .tc S1024x1280 32 [1] Facts₀.iota_S1024x1280_d1_w32) (k0_pay10 (F := Ideal) tg) kk so
        (ix2 r (0 : Fin 1))) := by
  -- the chunk's scores at row `r` are the real scores of columns `n, …, n + 1279`
  have hL : ∀ j : Fin 1280, k0_pay6 (F := Ideal) x0 x1 (ix2 r j) = ((lg 1024 x w tok (n + j.val) : ℝ) : EReal) := by
    intro j
    rw [pay6_apply]
    simp only [hx, hw]
    exact coe_lg 1024 x w tok (n + j.val)
  rw [pay9_apply, pay8_apply, pay7_apply, pay1_apply, pay10_eq]
  exact RowInv.step h 1280 (fun j => k0_pay6 (F := Ideal) x0 x1 (ix2 r j)) hL
    (fun j => BitVec.ofNat 32 j.val = tg (ix2 r (0 : Fin 1)) - kk)
    (fun j => by rw [htg, hkk]; exact mask_iff j.val g n j.isLt hg hn)

/-- The last store, at row `r`: from the state after all 32000 columns, the row's loss. -/
theorem row_final (F : ℕ → ℝ) (g : ℕ) (hg : g < 32000) (l m t : Vec Ideal S1024x1 .f32) (r : Fin 1024)
    (h : RowInv F g 32000 (m (ix2 r (0 : Fin 1))) (l (ix2 r (0 : Fin 1))) (t (ix2 r (0 : Fin 1)))) :
    k0_pay2 (F := Ideal) l m t (ix2 r (0 : Fin 1)) = ((rowLoss F g 32000 : ℝ) : EReal) := by
  rw [pay2_apply]
  exact RowInv.final h (by decide) hg

end Cert.KernelIdeal.PayAt

end
-- ==== Proof.KInv.lean ====
/-
  The kernel's carried state, point by point: after the chunk at grid point `n` (tile `n / 25`, chunk `n % 25`) row `r` of
  the three scratch buffers holds the chunked log-sum-exp state of token `1024 · (n / 25) + r` over the first
  `1280 · (n % 25 + 1)` vocabulary columns; and at a tile's last chunk the output block holds the tokens' losses.

  By induction on the point: a tile's first chunk starts from the reset values, every other chunk from what the chunk
  before left (same tile, one chunk fewer), and one chunk's update is the step of the chunked log-sum-exp.
-/
import proofs.«430093_j77902116814964_3_alg».proof.Proof.KPieces
import proofs.«430093_j77902116814964_3_alg».proof.Proof.KBlocks
import proofs.«430093_j77902116814964_3_alg».proof.Proof.PayAt

set_option maxRecDepth 16384

noncomputable section

namespace Cert.KernelIdeal.KI

open Idealize.ShloMosaic Idealize.ShloMosaic.TcCoe Idealize.ShloMosaic.Tactic Idealize.SL.Sem Idealize.ShloMosaic.ValueIdx
open Cert.KernelIdeal Cert.KernelIdeal.Gen Cert.Lse Cert.Spec
open Cert.KernelIdeal.KB Cert.KernelIdeal.KV Cert.KernelIdeal.PayAt

variable (m : (ℓ : Loc nD τ sig) → Buf (Elt Ideal) ℓ) (c : Dev nD)

/-- One chunk's update at point `t`, row `r`: from the state over `1280 · (t % 25)` columns to the state over 1280 more. -/
theorem step (hX : Finite (argX m c)) (hW : Finite (argW m c)) (hT : Below (argT m c) 32000)
    (t : Fin cfg0.N) (mo lo so : Vec Ideal S1024x1 .f32) (r : Fin 1024)
    (h : RowInv (score (argX m c) (argW m c) (1024 * (t.val / 25) + r.val)) (nat1 (argT m c) (1024 * (t.val / 25) + r.val))
      (1280 * (t.val % 25)) (mo (ix2 r (0 : Fin 1))) (lo (ix2 r (0 : Fin 1))) (so (ix2 r (0 : Fin 1)))) :
    RowInv (score (argX m c) (argW m c) (1024 * (t.val / 25) + r.val)) (nat1 (argT m c) (1024 * (t.val / 25) + r.val))
      (1280 * (t.val % 25) + 1280)
      (k0_pay9 (F := Ideal) (iblk m c 0 t) (iblk m c 1 t) mo (ix2 r (0 : Fin 1)))
      (k0_pay8 (F := Ideal) (iblk m c 0 t) (iblk m c 1 t) mo mo lo (ix2 r (0 : Fin 1)))
      (k0_pay1 (F := Ideal) (k0_pay6 (iblk m c 0 t) (iblk m c 1 t)) (iota .tc S1024x1280 32 [1] Facts₀.iota_S1024x1280_d1_w32)
        (k0_pay10 (F := Ideal) (iblk m c 2 t)) (Scalar.muli (BitVec.ofNat 32 (grid0.coords t 1).val) 1280#32) so (ix2 r (0 : Fin 1))) := by
  have hm : t.val % 25 < 25 := Nat.mod_lt _ (by decide)
  exact row_step (iblk m c 0 t) (iblk m c 1 t) mo lo so (iblk m c 2 t) _ r (real2 (argX m c)) (real2 (argW m c))
    (1024 * (t.val / 25) + r.val) (nat1 (argT m c) (1024 * (t.val / 25) + r.val)) (1280 * (t.val % 25))
    (fun d => xblk_real m c hX t r d) (fun j d => wblk_real m c hW t j d) (tblk_word m c hT t r) (offset_word t)
    (nat1_lt hT (by decide) _) (by omega) h

/-- After point `n` the scratch rows hold the state over `1280 · (n % 25) + 1280` columns of their tokens. -/
theorem inv (hX : Finite (argX m c)) (hW : Finite (argW m c)) (hT : Below (argT m c) 32000) :
    ∀ (n : ℕ) (hn : n < cfg0.N) (r : Fin 1024),
      RowInv (score (argX m c) (argW m c) (1024 * (n / 25) + r.val)) (nat1 (argT m c) (1024 * (n / 25) + r.val))
        (1280 * (n % 25) + 1280)
        ((outsAt0 m c n hn).2.1 (ix2 r (0 : Fin 1))) ((outsAt0 m c n hn).2.2.1 (ix2 r (0 : Fin 1)))
        ((outsAt0 m c n hn).2.2.2 (ix2 r (0 : Fin 1)))
  | 0, hn, r => by
    rw [outsAt0_A m c ⟨0, hn⟩ rfl (by show ¬(0 % 25 = 24); decide)]
    dsimp only
    rw [sA0, sA1, sA2]
    refine step m c hX hW hT ⟨0, hn⟩ (k0_pay3 (F := Ideal)) (k0_pay4 (F := Ideal)) (k0_pay5 (F := Ideal)) r ?_
    rw [show 1280 * ((⟨0, hn⟩ : Fin cfg0.N).val % 25) = 0 from rfl]
    exact row_init _ _ r
  | n + 1, hn, r => by
    have hN : n + 1 < 200 := lt_of_lt_of_eq hn (show cfg0.N = 200 from N_0)
    by_cases h0 : (n + 1) % 25 = 0
    · have h1 : ¬(n + 1) % 25 = 24 := by omega
      rw [outsAt0_A m c ⟨n + 1, hn⟩ h0 h1]
      dsimp only
      rw [sA0, sA1, sA2]
      refine step m c hX hW hT ⟨n + 1, hn⟩ (k0_pay3 (F := Ideal)) (k0_pay4 (F := Ideal)) (k0_pay5 (F := Ideal)) r ?_
      rw [show 1280 * ((⟨n + 1, hn⟩ : Fin cfg0.N).val % 25) = 0 from by dsimp only; omega]
      exact row_init _ _ r
    · have hq : (n + 1) / 25 = n / 25 := by omega
      have hr : 1280 * ((n + 1) % 25) = 1280 * (n % 25) + 1280 := by omega
      have IH := inv hX hW hT n (Nat.lt_of_succ_lt hn) r
      have IH' : RowInv (score (argX m c) (argW m c) (1024 * ((n + 1) / 25) + r.val)) (nat1 (argT m c) (1024 * ((n + 1) / 25) + r.val))
          (1280 * ((n + 1) % 25))
          ((outsAt0 m c n (Nat.lt_of_succ_lt hn)).2.1 (ix2 r (0 : Fin 1))) ((outsAt0 m c n (Nat.lt_of_succ_lt hn)).2.2.1 (ix2 r (0 : Fin 1)))
          ((outsAt0 m c n (Nat.lt_of_succ_lt hn)).2.2.2 (ix2 r (0 : Fin 1))) := by
        rw [hq, hr]; exact IH
      by_cases h1 : (n + 1) % 25 = 24
      · rw [outsAt0_C m c ⟨n + 1, hn⟩ h0 h1]
        dsimp only
        rw [sC0, sC1, sC2]
        exact step m c hX hW hT ⟨n + 1, hn⟩ (outsAt0 m c n (Nat.lt_of_succ_lt hn)).2.1 (outsAt0 m c n (Nat.lt_of_succ_lt hn)).2.2.1
          (outsAt0 m c n (Nat.lt_of_succ_lt hn)).2.2.2 r IH'
      · rw [outsAt0_B m c ⟨n + 1, hn⟩ h0 h1]
        dsimp only
        rw [sB0, sB1, sB2]
        exact step m c hX hW hT ⟨n + 1, hn⟩ (outsAt0 m c n (Nat.lt_of_succ_lt hn)).2.1 (outsAt0 m c n (Nat.lt_of_succ_lt hn)).2.2.1
          (outsAt0 m c n (Nat.lt_of_succ_lt hn)).2.2.2 r IH'

/-- At a tile's last chunk the output block's row `r` holds the loss of token `1024 · (n / 25) + r`. -/
theorem out_last (hX : Finite (argX m c)) (hW : Finite (argW m c)) (hT : Below (argT m c) 32000)
    (t : Fin cfg0.N) (h24 : t.val % 25 = 24) (r : Fin 1024) :
    (outsAt0 m c t.val t.isLt).1 (ix2 r (0 : Fin 1))
      = ((tokenLoss (argX m c) (argW m c) (argT m c) (1024 * (t.val / 25) + r.val) : ℝ) : EReal) := by
  obtain ⟨n', hn⟩ := t
  cases n' with
  | zero => exact absurd h24 (by show ¬(0 % 25 = 24); decide)
  | succ n =>
    have hN : n + 1 < 200 := lt_of_lt_of_eq hn (show cfg0.N = 200 from N_0)
    have h24' : (n + 1) % 25 = 24 := h24
    have h0 : ¬(n + 1) % 25 = 0 := by omega
    have hq : (n + 1) / 25 = n / 25 := by omega
    have hr : 1280 * ((n + 1) % 25) = 1280 * (n % 25) + 1280 := by omega
    have IH := inv m c hX hW hT n (Nat.lt_of_succ_lt hn) r
    have IH' : RowInv (score (argX m c) (argW m c) (1024 * ((n + 1) / 25) + r.val)) (nat1 (argT m c) (1024 * ((n + 1) / 25) + r.val))
        (1280 * ((n + 1) % 25))
        ((outsAt0 m c n (Nat.lt_of_succ_lt hn)).2.1 (ix2 r (0 : Fin 1))) ((outsAt0 m c n (Nat.lt_of_succ_lt hn)).2.2.1 (ix2 r (0 : Fin 1)))
        ((outsAt0 m c n (Nat.lt_of_succ_lt hn)).2.2.2 (ix2 r (0 : Fin 1))) := by
      rw [hq, hr]; exact IH
    have hs := step m c hX hW hT ⟨n + 1, hn⟩ (outsAt0 m c n (Nat.lt_of_succ_lt hn)).2.1 (outsAt0 m c n (Nat.lt_of_succ_lt hn)).2.2.1
      (outsAt0 m c n (Nat.lt_of_succ_lt hn)).2.2.2 r IH'
    rw [show 1280 * ((⟨n + 1, hn⟩ : Fin cfg0.N).val % 25) + 1280 = 32000 from by dsimp only; omega] at hs
    show (outsAt0 m c (n + 1) hn).1 (ix2 r (0 : Fin 1)) = _
    rw [outsAt0_C m c ⟨n + 1, hn⟩ h0 h24']
    dsimp only
    rw [oC3]
    exact row_final _ _ (nat1_lt hT (by decide) _) _ _ _ r hs

end Cert.KernelIdeal.KI

end
-- ==== Proof.KFinal.lean ====
/-
  The kernel's run, read: its result is the sum of the tokens' losses.

  The output array [8192, 1] is written back once per token tile, after the tile's last chunk, with that tile's 1024 losses;
  the eight write-backs tile the array, so it ends holding every token's loss; the host's sum over it is the total.
-/
import proofs.«430093_j77902116814964_3_alg».proof.Proof.KInv
import Idealize.ShloMosaic.Lib.Pipeline.Value
import Idealize.ShloMosaic.Lib.StableHlo.Run
import Idealize.ShloMosaic.PureOps.Ideal.Laws

set_option maxRecDepth 16384

noncomputable section

namespace Cert.KernelIdeal.KF

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen Cert.Lse Cert.Spec
open Cert.KernelIdeal.KB Cert.KernelIdeal.KI

variable (m : (ℓ : Loc nD τ sig) → Buf (Elt Ideal) ℓ) (ρ : Dev nD → PrngReg)

/-- The column of the tokens' losses. -/
def lossCol (c : Dev nD) : S8192x1.Idx → EReal :=
  fun i => ((tokenLoss (argX m c) (argW m c) (argT m c) (i 0).val : ℝ) : EReal)

/-- After a tile's last chunk the output block is the tile's losses, row by row. -/
theorem out_block (c : Dev nD) (hX : Finite (argX m c)) (hW : Finite (argW m c)) (hT : Below (argT m c) 32000)
    (t : Fin cfg0.N) (h24 : t.val % 25 = 24) :
    ((outsAt0 m c t.val t.isLt).1 : S1024x1.Idx → EReal)
      = fun y => ((tokenLoss (argX m c) (argW m c) (argT m c) (1024 * (t.val / 25) + (y 0).val) : ℝ) : EReal) := by
  funext y
  obtain ⟨r, q, rfl⟩ : ∃ (r : Fin 1024) (q : Fin 1), y = ix2 r q := ⟨y 0, y 1, eq_ix2 y⟩
  obtain rfl : q = 0 := Subsingleton.elim _ _
  exact out_last m c hX hW hT t h24 r

/-- What a write-back writes is its block of the loss column. -/
theorem flushed_eq (c : Dev nD) (hX : Finite (argX m c)) (hW : Finite (argW m c)) (hT : Below (argT m c) 32000)
    (t : Fin cfg0.N) (hf : (cfg0.win 3).flush t = true) :
    (dats m 0 c).flushed 3 t = ((cfg0.win 3).blk t).view.read (Elt Ideal) (lossCol m c) := by
  have h24 : t.val % 25 = 24 := (flush0_3 t).mp hf
  show (cfg0.win 3).cut (grid0.coords t) ((dats m 0 c).after 3 t) = _
  rw [after0_3, out_block m c hX hW hT t h24]
  funext y
  show ((tokenLoss (argX m c) (argW m c) (argT m c) (1024 * (t.val / 25) + (y 0).val) : ℝ) : EReal)
    = lossCol m c (((cfg0.win 3).blk t).view.emb y)
  unfold lossCol
  have e : ((((cfg0.win 3).blk t).view.emb y) 0).val = 1024 * (t.val / 25) + (y 0).val := by
    show win0_3.index t 0 * 1024 + 1 * (y 0).val = _
    rw [(idx3 t).1]; omega
  rw [e]

/-- An index of the array is in point `t`'s block iff each coordinate is in the block's range. -/
theorem mem_blk (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v4).slice (win0_3.rect t)).set ↔ _
  rw [View.set_slice_whole, Rect.mem_set_unit]
  exact Iff.rfl

/-- Row `i` is written back after the last chunk of its tile. -/
theorem cover (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 200 := N_0
  have hlt : 25 * ((i 0).val / 1024) + 24 < cfg0.N := by omega
  refine ⟨⟨25 * ((i 0).val / 1024) + 24, hlt⟩, (flush0_3 _).mpr (by dsimp only; omega), ?_⟩
  rw [mem_blk]
  obtain ⟨e0, e1⟩ := idx3 ⟨25 * ((i 0).val / 1024) + 24, hlt⟩
  intro a
  match a with
  | ⟨0, _⟩ =>
    show win0_3.index ⟨25 * ((i 0).val / 1024) + 24, hlt⟩ 0 * 1024 ≤ (i 0).val ∧ (i 0).val < win0_3.index ⟨25 * ((i 0).val / 1024) + 24, hlt⟩ 0 * 1024 + 1024
    rw [e0]; dsimp only; omega
  | ⟨1, _⟩ =>
    show win0_3.index ⟨25 * ((i 0).val / 1024) + 24, hlt⟩ 1 * 1 ≤ (i 1).val ∧ (i 1).val < win0_3.index ⟨25 * ((i 0).val / 1024) + 24, hlt⟩ 1 * 1 + 1
    rw [e1]; omega

/-- The output array after the run: the loss column. -/
theorem final (c : Dev nD) (hX : Finite (argX m c)) (hW : Finite (argW m c)) (hT : Below (argT m c) 32000) :
    (dats m 0 c).arrAt 3 cfg0.N = lossCol m c :=
  (dats m 0 c).arrAt_eq_of_cover 3 (lossCol m c) (fun t hf => flushed_eq m c hX hW hT t hf) (fun i => cover i)

/-- The sum of the loss column is the total. -/
theorem sum_lossCol (c : Dev nD) :
    ∑ i : S8192x1.Idx, lossCol m c i = ((total (argX m c) (argW m c) (argT m c) : ℝ) : EReal) := by
  rw [sum_idx2]
  simp only [Fin.sum_univ_one]
  unfold lossCol total
  rw [← coe_sum, Finset.sum_range]

/-- The host's sum after the region: the result is the total. -/
theorem tail_eq (c : Dev nD) (hX : Finite (argX m c)) (hW : Finite (argW m c)) (hT : Below (argT m c) 32000) :
    Pipeline.afterTail₀ cfgs (dats m) 0 (V0 m) [hostOps1] c main_v5 = result (argX m c) (argW m c) (argT m c) := by
  unfold Pipeline.afterTail₀
  show StableHlo.after hostOps1 _ (Proc.devRef .tc main_v5) = _
  after_results
  rw [show Pipeline.withArrays (cfgs 0).spec c (V0 m c) (fun w => (dats m 0 c).arrAt w (cfgs 0).N) (Proc.devRef .tc main_v4)
      = lossCol m c from (Pipeline.withArrays_arr spec0 launch0.win.arr_inj c _ _ 3).trans (final m c hX hW hT)]
  funext j
  show Ideal.hostReduceAdd Facts₀.reducesTo_S8192x1_S_d0_1 (lossCol m c) (Ideal.ofBits .f32 0x00000000#32) j = _
  rw [Ideal.hostReduceAdd_total _ (fun b => b.elim0), Ideal.ofBits_zero_f32, zero_add, sum_lossCol]
  rfl

/-- The kernel's run, read: from any memory with zero counters whose float arguments are finite and whose targets are
    below the vocabulary size, every weakly fair execution terminates with the result at the total of the tokens' losses
    and the arguments as launched. -/
theorem run (hpre : ∀ c : Dev nD, Finite (argX m c) ∧ Finite (argW m c) ∧ Below (argT m c) 32000) :
    θ_run defs (onTc (τ := τ) (main (F := Ideal))) ⟨m, fun _ => 0, ρ⟩ fun r => ∀ c : Dev nD,
      r.2.mem ((c.tc : Thread nD τ).loc main_v5) = result (argX m c) (argW m c) (argT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans
        (tail_eq m c (hpre c).1 (hpre c).2.1 (hpre c).2.2),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KF

end
-- ==== Proof.RefTerm.lean ====
/-
  The reference's result as ONE term of its argument arrays: its host operations composed, in the program's order.

  `logits = X · Wᵀ`; per token the maximum of its logits (from `-∞`) and the sum of the exponentials of the logits shifted
  by that maximum; the target's row of `W` taken by index (a negative index wrapped by the vocabulary size, an index
  still outside the table answered by the not-a-number pattern), multiplied into the token's row and summed; then
  `log sums + maxs - tscore`, summed over the tokens.
-/
import proofs.«430093_j77902116814964_3_alg».proof.ReferenceIdeal

noncomputable section

namespace Cert.ReferenceIdeal.Term

open Idealize.ShloMosaic Cert.ReferenceIdeal
open Cert.ReferenceIdeal.Facts₀ Cert.ReferenceIdeal.Facts

variable {F : FTy → Type} [FloatOps F] [Cert.ReferenceIdeal.Facts]

/-- The token-by-vocabulary scores. -/
def logits (X : FVec F S8192x1024 .f32) (W : FVec F S32000x1024 .f32) : FVec F S8192x32000 .f32 :=
  Host.dotGeneral dot_S8192x1024_S32000x1024_S8192x32000_1_1_0_0_n_n none X W

/-- Each token's largest score, from `-∞`. -/
def maxs (X : FVec F S8192x1024 .f32) (W : FVec F S32000x1024 .f32) : FVec F S8192 .f32 :=
  Host.reduce FloatOps.maximumf (logits X W) (constant S_ .f32 0xFF800000#32) reducesTo_S8192x32000_S8192_d1 h_S_

/-- Each token's sum of exponentials of its scores shifted by its largest. -/
def sums (X : FVec F S8192x1024 .f32) (W : FVec F S32000x1024 .f32) : FVec F S8192 .f32 :=
  Host.reduceAdd
    (Host.exp (subf (logits X W)
      (broadcastInDim S8192x32000 ![0, 1] bcast_S8192x1_S8192x32000_0_1 (broadcastInDim S8192x1 ![0] bcast_S8192_S8192x1_0 (maxs X W)))))
    (constant S_ .f32 0x00000000#32) reducesTo_S8192x32000_S8192_d1 h_S_

/-- The target indices, a negative one wrapped by the vocabulary size, as a column. -/
def wrapped (T : IVec S8192 32) : IVec S8192x1 32 :=
  broadcastInDim S8192x1 ![0] bcast_S8192_S8192x1_0
    (select (cmpi .slt T (broadcastInDim S8192 ![] bcast_S_S8192 (constantI S_ 32 0#32)))
      (addi T (broadcastInDim S8192 ![] bcast_S_S8192 (constantI S_ 32 32000#32))) T)

/-- Per token, whether its wrapped index lies in the table. -/
def inTable (T : IVec S8192 32) : IVec S8192 1 :=
  Host.reduce IntOp.andi
    (andi (cmpi .sge (wrapped T) (broadcastInDim S8192x1 ![] bcast_S_S8192x1 (constantI S_ 32 0#32)))
      (cmpi .sle (wrapped T)
        (broadcastInDim S8192x1 ![0, 1] bcast_S1x1_S8192x1_0_1 (broadcastInDim S1x1 ![1] bcast_S1_S1x1_1 (constantI S1 32 31999#32)))))
    (constantI S_ 1 1#1) reducesTo_S8192x1_S8192_d1 h_S_

/-- Each token's target row of `W`, the not-a-number pattern where the index is outside the table. -/
def taken (W : FVec F S32000x1024 .f32) (T : IVec S8192 32) : FVec F S8192x1024 .f32 :=
  select (broadcastInDim S8192x1024 ![0] bcast_S8192_S8192x1024_0 (inTable T))
    (Host.gather gather_S32000x1024_S8192x1_S8192x1024_1_0_n_n_0_1_11024 W (wrapped T))
    (broadcastInDim S8192x1024 ![] bcast_S_S8192x1024 (constant S_ .f32 0x7FC00000#32))

/-- Each token's target score. -/
def tscore (X : FVec F S8192x1024 .f32) (W : FVec F S32000x1024 .f32) (T : IVec S8192 32) : FVec F S8192 .f32 :=
  Host.reduceAdd (mulf X (taken W T)) (constant S_ .f32 0x00000000#32) reducesTo_S8192x1024_S8192_d1 h_S_

/-- The result: the sum over the tokens of `log sums + maxs - tscore`. -/
def out (X : FVec F S8192x1024 .f32) (W : FVec F S32000x1024 .f32) (T : IVec S8192 32) : FVec F S_ .f32 :=
  Host.reduceAdd (subf (addf (Host.log (sums X W)) (maxs X W)) (tscore X W T)) (constant S_ .f32 0x00000000#32)
    reducesTo_S8192_S_d0 h_S_

end Cert.ReferenceIdeal.Term

end
-- ==== Proof.RefRun.lean ====
/-
  The reference's run: every weakly fair execution of its host program terminates, its result buffer holding the composed
  term of the argument arrays and the arguments unchanged.
-/
import proofs.«430093_j77902116814964_3_alg».proof.Proof.RefTerm
import proofs.«430093_j77902116814964_3_alg».proof.Proof.Gen.ReferenceIdeal
import Idealize.ShloMosaic.Lib.StableHlo.Run

noncomputable section

namespace Cert.ReferenceIdeal.Run

open Idealize.ShloMosaic Idealize.SL.Sem Idealize.ShloMosaic.StableHlo
open Cert.ReferenceIdeal Cert.ReferenceIdeal.Gen

variable {F : FTy → Type} [FloatOps F]

section Fold

open Idealize.ShloMosaic.TcCoe

/-- The program's forty operations in order, the two calls unfolded: the scores, each token's maximum and shifted
    exponential sum (nine lines of the entry function); the row lookup (twenty-three lines: the index wrapped through the
    inner call's select in seventh place, the range test, the gather, the not-a-number fill); then the product with the
    token's row, its sum, and `log sums + maxs - tscore` summed over the tokens (eight lines). -/
abbrev ops : List (HloOp τ sig (Elt F)) :=
  [ binary main_arg0 main_arg1 main_v0 (fun l r => Host.dotGeneral dot_S8192x1024_S32000x1024_S8192x32000_1_1_0_0_n_n none l r),
    nullary main_cst (constant S_ .f32 0xFF800000#32),
    binary main_v0 main_cst main_v1 (fun x v => Host.reduce FloatOps.maximumf x v reducesTo_S8192x32000_S8192_d1 h_S_),
    unary main_v1 main_v2 (broadcastInDim S8192x1 ![0] bcast_S8192_S8192x1_0),
    unary main_v2 main_v3 (broadcastInDim S8192x32000 ![0, 1] bcast_S8192x1_S8192x32000_0_1),
    binary main_v0 main_v3 main_v4 subf,
    unary main_v4 main_v5 Host.exp,
    nullary main_cst_0 (constant S_ .f32 0x00000000#32),
    binary main_v5 main_cst_0 main_v6 (fun x v => Host.reduceAdd x v reducesTo_S8192x32000_S8192_d1 h_S_),
    TRef.nullary main_call0.c (constantI S_ 32 0#32),
    TRef.unary main_call0.c main_call0.v0 (broadcastInDim S8192 ![] bcast_S_S8192),
    TRef.binary (.of main_arg2) main_call0.v0 main_call0.v1 (cmpi .slt),
    TRef.nullary main_call0.c_0 (constantI S_ 32 32000#32),
    TRef.unary main_call0.c_0 main_call0.v2 (broadcastInDim S8192 ![] bcast_S_S8192),
    TRef.binary (.of main_arg2) main_call0.v2 main_call0.v3 addi,
    TRef.ternary main_call0.v1 main_call0.v3 (.of main_arg2) main_call0.call0.v0 select,
    TRef.unary main_call0.call0.v0 main_call0.v5 (broadcastInDim S8192x1 ![0] bcast_S8192_S8192x1_0),
    TRef.nullary main_call0.c_1 (constantI S1 32 31999#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg1) main_call0.v5 main_call0.v13 (fun x i => Host.gather gather_S32000x1024_S8192x1_S8192x1024_1_0_n_n_0_1_11024 x i),
    TRef.unary main_call0.v12 main_call0.v14 (broadcastInDim S8192x1024 ![0] bcast_S8192_S8192x1024_0),
    TRef.nullary main_call0.cst (constant S_ .f32 0x7FC00000#32),
    TRef.unary main_call0.cst main_call0.v15 (broadcastInDim S8192x1024 ![] bcast_S_S8192x1024),
    TRef.ternary main_call0.v14 main_call0.v13 main_call0.v15 main_call0.v16 select,
    binary main_arg0 main_v7 main_v8 mulf,
    nullary main_cst_1 (constant S_ .f32 0x00000000#32),
    binary main_v8 main_cst_1 main_v9 (fun x v => Host.reduceAdd x v reducesTo_S8192x1024_S8192_d1 h_S_),
    unary main_v6 main_v10 Host.log,
    binary main_v10 main_v1 main_v11 addf,
    binary main_v11 main_v9 main_v12 subf,
    nullary main_cst_2 (constant S_ .f32 0x00000000#32),
    binary main_v12 main_cst_2 main_v13 (fun x v => Host.reduceAdd x v reducesTo_S8192_S_d0 h_S_) ]

set_option maxRecDepth 1024 in
/-- The entry function is that straight line: the two callees' definitions unfolded at their calls and the call records
    at their fields, both sides are one chain of steps once sequencing is reassociated. -/
theorem main_eq (c : Dev nD) : main (F := F) c = seq ops := by
  simp only [main, fn_take.body, fn_where.body, seq, bind_assoc, pure_bind]
  rfl

attribute [local irreducible] Host.reduce Host.reduceAdd Host.gather Host.exp Host.log in
set_option maxRecDepth 8192 in
set_option maxHeartbeats 4000000 in
/-- The fold read at the result buffer is the composed term: the fold unrolled, each operation's result read at its own
    buffer is its function's value and at any other buffer what was there, which leaves the operations composed in the
    program's order; that is the term with its parts unfolded, the typed references' casts being the identity at these
    literal references. The reductions, the gather and the transcendental maps stay folded meanwhile: the equation never
    looks inside them. -/
theorem out_eq (V : Valuation τ sig (Elt F)) :
    after ops V (main_v13 : DevRef τ sig)
      = Term.out (V (main_arg0 : DevRef τ sig)) (V (main_arg1 : DevRef τ sig)) (V (main_arg2 : DevRef τ sig)) := by
  simp only [Term.out, Term.tscore, Term.taken, Term.inTable, Term.wrapped, Term.sums, Term.maxs, Term.logits]
  after_results_simp
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., unary_bufs_sub .., unary_bufs_sub .., binary_bufs_sub ..,
    unary_bufs_sub .., nullary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., nullary_bufs_sub .., binary_bufs_sub .., unary_bufs_sub .., binary_bufs_sub .., binary_bufs_sub ..,
    nullary_bufs_sub .., binary_bufs_sub ..⟩

/-- From any memory with zero counters every weakly fair execution of the entry function terminates, each buffer of a
    device at the operations' fold over that device's launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Fold

/-- From any memory with zero counters every weakly fair execution of the reference terminates with its result at the
    composed term of the launch contents of its arguments, and its arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
          = Term.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c main_v13).trans (out_eq _), (h c main_arg0).trans (arg0_eq _), (h c main_arg1).trans (arg1_eq _),
      (h c main_arg2).trans (arg2_eq _)⟩)
    (run_main m ρ)

end Cert.ReferenceIdeal.Run

end
-- ==== Proof.RefValue.lean ====
/-
  The reference's composed term, read on the extended reals for finite inputs and in-range targets, is the sum over the
  tokens of log-sum-exp of the token's scores minus its target's score.
-/
import proofs.«430093_j77902116814964_3_alg».proof.Proof.RefTerm
import proofs.«430093_j77902116814964_3_alg».proof.Proof.Gen.ReferenceIdeal
import proofs.«430093_j77902116814964_3_alg».proof.Proof.Spec
import Idealize.ShloMosaic.Lib.ValueIdx
import Idealize.ShloMosaic.PureOps.Ideal.Laws
import Idealize.ShloMosaic.PureOps.Reduce
import Idealize.ShloMosaic.Lib.Pipeline.Value
import Idealize.ShloMosaic.Lib.StableHlo.Predicate
import Idealize.ShloMosaic.Lib.ValueIdxRank1
import Idealize.ShloMosaic.Lib.Pipeline.Value
import Idealize.ShloMosaic.Lib.StableHlo.Predicate
import Idealize.ShloMosaic.Lib.Pipeline.Value
import Idealize.ShloMosaic.Lib.IdealHost

noncomputable section

namespace Cert.ReferenceIdeal.Value

open Idealize.ShloMosaic Idealize.ShloMosaic.ValueIdx
open Cert.ReferenceIdeal Cert.ReferenceIdeal.Gen

/-! ## The scores -/

/-- The left operand's row coordinate is the result's row. -/
theorem lhs_0 (i : S8192x32000.Idx) (q : dot_S8192x1024_S32000x1024_S8192x32000_1_1_0_0_n_n.contr.Idx) :
    (dot_S8192x1024_S32000x1024_S8192x32000_1_1_0_0_n_n.lhsIdx i q 0).val = (i 0).val := by
  unfold DotDims.lhsIdx
  rw [dif_neg (show ¬(0 : Fin S8192x1024.rank) ∈ dot_S8192x1024_S32000x1024_S8192x32000_1_1_0_0_n_n.lhsBatch by decide),
    dif_pos (show (0 : Fin S8192x1024.rank) ∈ dot_S8192x1024_S32000x1024_S8192x32000_1_1_0_0_n_n.lhsNonContracting by decide)]
  rfl

/-- The left operand's feature coordinate is the contraction position. -/
theorem lhs_1 (i : S8192x32000.Idx) (q : dot_S8192x1024_S32000x1024_S8192x32000_1_1_0_0_n_n.contr.Idx) :
    (dot_S8192x1024_S32000x1024_S8192x32000_1_1_0_0_n_n.lhsIdx i q 1).val = (q ⟨0, by decide⟩).val :=
  dot_S8192x1024_S32000x1024_S8192x32000_1_1_0_0_n_n.lhsIdx_val_of_single rfl i q

/-- The right operand's row coordinate is the result's column. -/
theorem rhs_0 (i : S8192x32000.Idx) (q : dot_S8192x1024_S32000x1024_S8192x32000_1_1_0_0_n_n.contr.Idx) :
    (dot_S8192x1024_S32000x1024_S8192x32000_1_1_0_0_n_n.rhsIdx i q 0).val = (i 1).val := by
  unfold DotDims.rhsIdx
  rw [dif_neg (show ¬(0 : Fin S32000x1024.rank) ∈ dot_S8192x1024_S32000x1024_S8192x32000_1_1_0_0_n_n.rhsBatch by decide),
    dif_pos (show (0 : Fin S32000x1024.rank) ∈ dot_S8192x1024_S32000x1024_S8192x32000_1_1_0_0_n_n.rhsNonContracting by decide)]
  rfl

/-- The right operand's feature coordinate is the contraction position. -/
theorem rhs_1 (i : S8192x32000.Idx) (q : dot_S8192x1024_S32000x1024_S8192x32000_1_1_0_0_n_n.contr.Idx) :
    (dot_S8192x1024_S32000x1024_S8192x32000_1_1_0_0_n_n.rhsIdx i q 1).val = (q ⟨0, by decide⟩).val :=
  dot_S8192x1024_S32000x1024_S8192x32000_1_1_0_0_n_n.rhsIdx_val_of_single rfl i q

/-- A score is the inner product of the token's row and the vocabulary row. -/
theorem logits_sum (X : FVec Ideal S8192x1024 .f32) (W : FVec Ideal S32000x1024 .f32) (t : Fin 8192) (v : Fin 32000) :
    Term.logits (F := Ideal) X W (ix2 t v) = ∑ k : Fin 1024, X (ix2 t k) * W (ix2 v k) := by
  unfold Term.logits
  simp only [Host.dotGeneral]
  rw [Ideal.dotGeneral_apply,
    ← Equiv.sum_comp (contrEquiv1 dot_S8192x1024_S32000x1024_S8192x32000_1_1_0_0_n_n 1024 rfl rfl).symm]
  refine Finset.sum_congr rfl fun k _ => ?_
  have hk := contrEquiv1_symm_val dot_S8192x1024_S32000x1024_S8192x32000_1_1_0_0_n_n 1024 rfl rfl k
  have el : dot_S8192x1024_S32000x1024_S8192x32000_1_1_0_0_n_n.lhsIdx (ix2 t v)
      ((contrEquiv1 dot_S8192x1024_S32000x1024_S8192x32000_1_1_0_0_n_n 1024 rfl rfl).symm k) = ix2 t k :=
    funext fun a => Fin.ext (by
      match a with
      | ⟨0, _⟩ => exact lhs_0 _ _
      | ⟨1, _⟩ => exact (lhs_1 _ _).trans hk)
  have er : dot_S8192x1024_S32000x1024_S8192x32000_1_1_0_0_n_n.rhsIdx (ix2 t v)
      ((contrEquiv1 dot_S8192x1024_S32000x1024_S8192x32000_1_1_0_0_n_n 1024 rfl rfl).symm k) = ix2 v k :=
    funext fun a => Fin.ext (by
      match a with
      | ⟨0, _⟩ => exact rhs_0 _ _
      | ⟨1, _⟩ => exact (rhs_1 _ _).trans hk)
  rw [el, er]

/-- For finite inputs a score is the real score. -/
theorem logits_eq (X : FVec Ideal S8192x1024 .f32) (W : FVec Ideal S32000x1024 .f32)
    (hX : Cert.Spec.Finite X) (hW : Cert.Spec.Finite W) (t : Fin 8192) (v : Fin 32000) :
    Term.logits (F := Ideal) X W (ix2 t v) = ((Cert.Spec.score X W t.val v.val : ℝ) : EReal) := by
  rw [logits_sum]
  simp only [Cert.Spec.real2_eq hX, Cert.Spec.real2_eq hW]
  exact Cert.Lse.coe_lg 1024 _ _ t.val v.val

/-! ## Each token's largest score and shifted exponential sum -/

/-- Reducing the vocabulary axis of the scores leaves the token axis. -/
theorem red_vocab : S8192x32000.Reduces [1] S8192 := by decide

/-- Token `t` with vocabulary coordinate `v` inserted is the index `(t, v)`. -/
theorem lift_vocab (t : Fin 8192) (v : Fin 32000) : red_vocab.lift (ix1 t) v = ix2 t v :=
  funext fun a => Fin.ext (by
    match a with
    | ⟨0, _⟩ => rfl
    | ⟨1, _⟩ => rfl)

/-- The pattern `0xFF800000` is `-∞`. -/
theorem ofBits_neg_inf : Ideal.ofBits .f32 0xFF800000#32 = ⊥ := by
  simp [Ideal.ofBits, Ideal.ieee]

/-- A token's largest score is the maximum of its scores from `⊥`. -/
theorem maxs_fold (X : FVec Ideal S8192x1024 .f32) (W : FVec Ideal S32000x1024 .f32) (t : Fin 8192) :
    Term.maxs (F := Ideal) X W (ix1 t)
      = Finset.univ.fold max ⊥ (fun v : Fin 32000 => Term.logits (F := Ideal) X W (ix2 t v)) := by
  unfold Term.maxs
  rw [Host.reduce_eq_fold_single (FloatOps.maximumf (F := Ideal) (φ := .f32)) _ _ _ red_vocab]
  show Finset.univ.fold max (Ideal.ofBits .f32 0xFF800000#32)
      (fun v : Fin 32000 => Term.logits (F := Ideal) X W (red_vocab.lift (ix1 t) v)) = _
  rw [ofBits_neg_inf]
  simp only [lift_vocab]

/-- A column of per-token values broadcast across the vocabulary reads the token's value. -/
theorem bcast_col {α : Type} (m : S8192.Idx → α) (t : Fin 8192) (v : Fin 32000) :
    broadcastInDim S8192x32000 ![0, 1] bcast_S8192x1_S8192x32000_0_1
      (broadcastInDim S8192x1 ![0] bcast_S8192_S8192x1_0 m) (ix2 t v) = m (ix1 t) := by
  refine (broadcastInDim_apply ![0, 1] bcast_S8192x1_S8192x32000_0_1 _ (ix2 t v) (ix2 t (0 : Fin 1)) ?_).trans ?_
  · intro a
    match a with
    | ⟨0, _⟩ => rfl
    | ⟨1, _⟩ => rfl
  · refine broadcastInDim_apply ![0] bcast_S8192_S8192x1_0 m (ix2 t (0 : Fin 1)) (ix1 t) ?_
    intro a
    match a with
    | ⟨0, _⟩ => rfl

/-- A token's sum is the sum of the exponentials of its scores shifted by its largest. -/
theorem sums_sum (X : FVec Ideal S8192x1024 .f32) (W : FVec Ideal S32000x1024 .f32) (t : Fin 8192) :
    Term.sums (F := Ideal) X W (ix1 t)
      = ∑ v : Fin 32000, Ideal.exp (Term.logits (F := Ideal) X W (ix2 t v) - Term.maxs (F := Ideal) X W (ix1 t)) := by
  unfold Term.sums
  simp only [Host.reduceAdd, Ideal.hostReduceAdd_def]
  rw [Ideal.hostReduceAdd_single _ red_vocab]
  show Ideal.ofBits .f32 0x00000000#32 + ∑ v : Fin 32000, _ = _
  rw [Ideal.ofBits_zero_f32, zero_add]
  refine Finset.sum_congr rfl fun v _ => ?_
  rw [lift_vocab]
  show Ideal.exp (Term.logits (F := Ideal) X W (ix2 t v) - _) = _
  rw [bcast_col]

/-! ## The target's row of `W` and the target's score -/

/-- On the table's row axis the operand index is the start index of `t`, read signed and clamped into the table. -/
theorem gather_coord_0 (idx : IVec S8192x1 32) (t : Fin 8192) (d : Fin 1024) :
    (gather_S32000x1024_S8192x1_S8192x1024_1_0_n_n_0_1_11024.operandIdx (ix2 t d) idx (0 : Fin S32000x1024.rank)).val
      = min (idx (ix2 t (0 : Fin 1))).toInt.toNat 31999 := by
  show gather_S32000x1024_S8192x1_S8192x1024_1_0_n_n_0_1_11024.start (ix2 t d) idx 0
      + gather_S32000x1024_S8192x1_S8192x1024_1_0_n_n_0_1_11024.batchCoord (ix2 t d) 0
      + gather_S32000x1024_S8192x1_S8192x1024_1_0_n_n_0_1_11024.offCoord (ix2 t d) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin S32000x1024.rank) ∈ gather_S32000x1024_S8192x1_S8192x1024_1_0_n_n_0_1_11024.startIndexMap
    from List.mem_singleton.mpr rfl)]
  have hsi : gather_S32000x1024_S8192x1_S8192x1024_1_0_n_n_0_1_11024.siIdx (ix2 t d)
      ⟨List.idxOf (0 : Fin S32000x1024.rank) gather_S32000x1024_S8192x1_S8192x1024_1_0_n_n_0_1_11024.startIndexMap,
        List.idxOf_lt_length_iff.2 (List.mem_singleton.mpr rfl)⟩ = ix2 t (0 : Fin 1) := by
    funext b
    refine Fin.ext ?_
    match b with
    | ⟨0, _⟩ => rfl
    | ⟨1, _⟩ => rfl
  rw [hsi]
  rfl

/-- On the table's feature axis the operand index is the result's feature coordinate. -/
theorem gather_coord_1 (idx : IVec S8192x1 32) (t : Fin 8192) (d : Fin 1024) :
    (gather_S32000x1024_S8192x1_S8192x1024_1_0_n_n_0_1_11024.operandIdx (ix2 t d) idx (1 : Fin S32000x1024.rank)).val
      = d.val := by
  show gather_S32000x1024_S8192x1_S8192x1024_1_0_n_n_0_1_11024.start (ix2 t d) idx 1
      + gather_S32000x1024_S8192x1_S8192x1024_1_0_n_n_0_1_11024.batchCoord (ix2 t d) 1
      + gather_S32000x1024_S8192x1_S8192x1024_1_0_n_n_0_1_11024.offCoord (ix2 t d) 1 = _
  rw [GatherDims.batchCoord_eq_zero _ _ _ List.not_mem_nil, Nat.add_zero]
  unfold GatherDims.start
  rw [dif_neg (show ¬(1 : Fin S32000x1024.rank) ∈ gather_S32000x1024_S8192x1_S8192x1024_1_0_n_n_0_1_11024.startIndexMap
    by decide), Nat.zero_add]
  unfold GatherDims.offCoord
  rw [dif_pos (show (1 : Fin S32000x1024.rank) ∈ gather_S32000x1024_S8192x1_S8192x1024_1_0_n_n_0_1_11024.sKept by decide)]
  rfl

/-- The row taken at `(t, d)` is the operand's row at the start index of `t`, read signed and clamped into the table. -/
theorem gather_row {α : Type} (x : S32000x1024.Idx → α) (idx : IVec S8192x1 32) (t : Fin 8192) (d : Fin 1024) (g : Fin 32000)
    (hg : min (idx (ix2 t (0 : Fin 1))).toInt.toNat 31999 = g.val) :
    Host.gather gather_S32000x1024_S8192x1_S8192x1024_1_0_n_n_0_1_11024 x idx (ix2 t d) = x (ix2 g d) := by
  unfold Host.gather
  refine congrArg x (funext fun a => Fin.ext ?_)
  match a with
  | ⟨0, _⟩ => exact (gather_coord_0 idx t d).trans hg
  | ⟨1, _⟩ => exact gather_coord_1 idx t d

/-- An in-range target index is not wrapped. -/
theorem wrapped_apply (T : IVec S8192 32) (t : Fin 8192) (h : (T (ix1 t)).toNat < 32000) :
    Term.wrapped T (ix2 t (0 : Fin 1)) = T (ix1 t) := by
  unfold Term.wrapped
  refine (broadcastInDim_apply ![0] bcast_S8192_S8192x1_0 _ (ix2 t (0 : Fin 1)) (ix1 t) ?_).trans ?_
  · intro a
    match a with
    | ⟨0, _⟩ => rfl
  · show Scalar.select (IntOp.cmpi .slt (T (ix1 t)) 0#32) (IntOp.addi (T (ix1 t)) 32000#32) (T (ix1 t)) = T (ix1 t)
    have hc : ¬IntOp.cmpi .slt (T (ix1 t)) 0#32 = 1#1 := by
      rw [StableHlo.Predicate.slt_iff_toNat (by omega) (by decide)]
      exact Nat.not_lt_zero _
    rw [eq_zero_of_ne_one hc, select_zero]

/-- Reducing the unit axis of a column leaves the token axis. -/
theorem red_unit : S8192x1.Reduces [1] S8192 := by decide

/-- Token `t` with the unit coordinate inserted is the index `(t, 0)`. -/
theorem lift_unit (t : Fin 8192) (k : Fin 1) : red_unit.lift (ix1 t) k = ix2 t (0 : Fin 1) := by
  obtain rfl : k = 0 := Subsingleton.elim _ _
  exact funext fun a => Fin.ext (by
    match a with
    | ⟨0, _⟩ => rfl
    | ⟨1, _⟩ => rfl)

/-- An in-range target index lies in the table. -/
theorem inTable_apply (T : IVec S8192 32) (t : Fin 8192) (h : (T (ix1 t)).toNat < 32000) :
    Term.inTable T (ix1 t) = 1#1 := by
  unfold Term.inTable
  rw [Host.reduce_eq_fold_single IntOp.andi _ _ _ red_unit]
  show Finset.fold IntOp.andi (1#1)
    (fun k : Fin 1 => IntOp.andi (IntOp.cmpi .sge (Term.wrapped T (red_unit.lift (ix1 t) k)) 0#32)
      (IntOp.cmpi .sle (Term.wrapped T (red_unit.lift (ix1 t) k)) 31999#32)) Finset.univ = 1#1
  simp only [lift_unit, wrapped_apply T t h]
  rw [Finset.univ_unique, Finset.fold_singleton]
  have h1 : IntOp.cmpi .sge (T (ix1 t)) 0#32 = 1#1 :=
    (StableHlo.Predicate.sge_iff_toNat (by omega) (by decide)).mpr (Nat.zero_le _)
  have h2 : IntOp.cmpi .sle (T (ix1 t)) 31999#32 = 1#1 :=
    (StableHlo.Predicate.sle_iff_toNat (by omega) (by decide)).mpr (by
      show (T (ix1 t)).toNat ≤ 31999
      omega)
  rw [h1, h2]
  rfl

/-- For an in-range target the taken row is the target's row of `W`. -/
theorem taken_apply (W : FVec Ideal S32000x1024 .f32) (T : IVec S8192 32) (t : Fin 8192) (d : Fin 1024)
    (h : (T (ix1 t)).toNat < 32000) :
    Term.taken (F := Ideal) W T (ix2 t d) = W (ix2 ⟨(T (ix1 t)).toNat, h⟩ d) := by
  unfold Term.taken
  rw [select_apply]
  have hb : broadcastInDim S8192x1024 ![0] bcast_S8192_S8192x1024_0 (Term.inTable T) (ix2 t d) = Term.inTable T (ix1 t) :=
    broadcastInDim_apply ![0] bcast_S8192_S8192x1024_0 _ (ix2 t d) (ix1 t) (by
      intro a
      match a with
      | ⟨0, _⟩ => rfl)
  rw [hb, inTable_apply T t h, select_one]
  refine gather_row W (Term.wrapped T) t d ⟨(T (ix1 t)).toNat, h⟩ ?_
  rw [wrapped_apply T t h, StableHlo.Predicate.toInt_eq_toNat_of_lt (by omega), Int.toNat_natCast]
  exact min_eq_left (by omega)

/-- Reducing the feature axis leaves the token axis. -/
theorem red_feat : S8192x1024.Reduces [1] S8192 := by decide

/-- Token `t` with feature coordinate `d` inserted is the index `(t, d)`. -/
theorem lift_feat (t : Fin 8192) (d : Fin 1024) : red_feat.lift (ix1 t) d = ix2 t d :=
  funext fun a => Fin.ext (by
    match a with
    | ⟨0, _⟩ => rfl
    | ⟨1, _⟩ => rfl)

/-- For finite inputs and an in-range target, the target's score is the real score at the target. -/
theorem tscore_eq (X : FVec Ideal S8192x1024 .f32) (W : FVec Ideal S32000x1024 .f32) (T : IVec S8192 32)
    (hX : Cert.Spec.Finite X) (hW : Cert.Spec.Finite W) (t : Fin 8192) (h : (T (ix1 t)).toNat < 32000) :
    Term.tscore (F := Ideal) X W T (ix1 t) = ((Cert.Spec.score X W t.val (Cert.Spec.nat1 T t.val) : ℝ) : EReal) := by
  unfold Term.tscore
  simp only [Host.reduceAdd, Ideal.hostReduceAdd_def]
  rw [Ideal.hostReduceAdd_single _ red_feat]
  show Ideal.ofBits .f32 0x00000000#32 + ∑ d : Fin 1024, _ = _
  rw [Ideal.ofBits_zero_f32, zero_add]
  have hterm : ∀ d : Fin 1024, mulf X (Term.taken (F := Ideal) W T) (red_feat.lift (ix1 t) d)
      = ((Cert.Spec.real2 X t.val d.val : ℝ) : EReal) * ((Cert.Spec.real2 W (T (ix1 t)).toNat d.val : ℝ) : EReal) := by
    intro d
    rw [lift_feat, mulf_apply, taken_apply W T t d h, Cert.Spec.real2_eq hX, Cert.Spec.real2_eq hW]
  rw [Finset.sum_congr rfl fun d _ => hterm d, Cert.Spec.nat1_eq]
  exact Cert.Lse.coe_lg 1024 _ _ t.val _

/-! ## The tokens' losses and their sum -/

/-- For finite inputs and in-range targets, token `t`'s term is its loss. -/
theorem token_eq (X : FVec Ideal S8192x1024 .f32) (W : FVec Ideal S32000x1024 .f32) (T : IVec S8192 32)
    (hX : Cert.Spec.Finite X) (hW : Cert.Spec.Finite W) (hT : Cert.Spec.Below T 32000) (t : Fin 8192) :
    Ideal.log (Term.sums (F := Ideal) X W (ix1 t)) + Term.maxs (F := Ideal) X W (ix1 t) - Term.tscore (F := Ideal) X W T (ix1 t)
      = ((Cert.Spec.tokenLoss X W T t.val : ℝ) : EReal) := by
  rw [sums_sum, maxs_fold, tscore_eq X W T hX hW t (hT (ix1 t))]
  simp only [logits_eq X W hX hW]
  unfold Cert.Spec.tokenLoss
  exact Cert.Lse.ref_row (Cert.Spec.score X W t.val) (Cert.Spec.nat1 T t.val) 32000 (by decide)
    (Cert.Spec.nat1_lt hT (by decide) _)

/-- The host's logarithm at an index is the logarithm of the entry. -/
theorem hostLog_apply {s : Shape} (x : FVec Ideal s .f32) (i : s.Idx) : Host.log x i = Ideal.log (x i) := rfl

/-- The summand of the result at token `t` is the token's loss. -/
theorem term_eq (X : FVec Ideal S8192x1024 .f32) (W : FVec Ideal S32000x1024 .f32) (T : IVec S8192 32)
    (hX : Cert.Spec.Finite X) (hW : Cert.Spec.Finite W) (hT : Cert.Spec.Below T 32000) (t : Fin 8192) :
    subf (addf (Host.log (Term.sums (F := Ideal) X W)) (Term.maxs (F := Ideal) X W)) (Term.tscore (F := Ideal) X W T)
        ((idxEquiv1 (n := 8192)).symm t) = ((Cert.Spec.tokenLoss X W T t.val : ℝ) : EReal) := by
  show subf (addf (Host.log (Term.sums (F := Ideal) X W)) (Term.maxs (F := Ideal) X W)) (Term.tscore (F := Ideal) X W T) (ix1 t) = _
  rw [subf_apply, addf_apply, hostLog_apply]
  exact token_eq X W T hX hW hT t

/-- For finite `X`, `W` and targets below the vocabulary size the reference's term is the common result. -/
theorem out_eq (X : FVec Ideal S8192x1024 .f32) (W : FVec Ideal S32000x1024 .f32) (T : IVec S8192 32)
    (hX : Cert.Spec.Finite X) (hW : Cert.Spec.Finite W) (hT : Cert.Spec.Below T 32000) :
    Term.out (F := Ideal) X W T = Cert.Spec.result X W T := by
  funext j
  unfold Term.out
  simp only [Host.reduceAdd, Ideal.hostReduceAdd_def]
  rw [Ideal.hostReduceAdd_total _ (fun b => b.elim0)]
  show Ideal.ofBits .f32 0x00000000#32 + ∑ i : S8192.Idx, _ = _
  rw [Ideal.ofBits_zero_f32, zero_add, ← Equiv.sum_comp (idxEquiv1 (n := 8192)).symm,
    Finset.sum_congr rfl fun t _ => term_eq X W T hX hW hT t, Cert.Lse.coe_sum]
  unfold Cert.Spec.result Cert.Spec.total
  rw [Finset.sum_range]

end Cert.ReferenceIdeal.Value

end
-- ==== Proof.PreDecode.lean ====
/-
  What the precondition says of the argument arrays: every entry of the two float arrays is a real number, and every
  target index, read unsigned, is below the vocabulary size.
-/
import proofs.«430093_j77902116814964_3_alg».proof.Pre_finite_inputs
import proofs.«430093_j77902116814964_3_alg».proof.Proof.Gen.Pre_finite_inputs
import proofs.«430093_j77902116814964_3_alg».proof.Proof.Spec
import Idealize.ShloMosaic.Lib.ReduceAll
import Idealize.ShloMosaic.Lib.StableHlo.Predicate
import Idealize.ShloMosaic.PureOps.Ideal.Laws

noncomputable section

namespace Cert.PreDecode

open Idealize.ShloMosaic Idealize.ShloMosaic.ValueIdx
open Cert.Pre_finite_inputs Cert.Pre_finite_inputs.Gen

/-- The rank-0 shape has one index. -/
instance subsingleton_scalar_idx : Subsingleton S_.Idx := ⟨fun a b => funext fun d => d.elim0⟩

/-- The word 0x7F800000 denotes +∞. -/
theorem inf_eq_top : Ideal.ofBits .f32 0x7F800000#32 = (⊤ : EReal) := by simp [Ideal.ofBits, Ideal.ieee]

/-- A one-bit word made from a Boolean is 1 exactly when the Boolean is true. -/
theorem ofBool_eq_one (b : Bool) : BitVec.ofBool b = 1#1 ↔ b = true := by cases b <;> decide

/-- An extended real whose absolute value max x (−x) lies strictly below +∞ is a real number. -/
theorem real_of_abs_lt (x : EReal) (h : Ideal.cmp .olt (max x (-x)) ⊤ = 1#1) : ∃ r : ℝ, x = (r : EReal) := by
  unfold Ideal.cmp at h
  rw [ofBool_eq_one] at h
  have hlt : max x (-x) < ⊤ := of_decide_eq_true h
  rw [max_lt_iff] at hlt
  induction x using EReal.rec with
  | bot => exact absurd hlt.2 (by simp)
  | coe r => exact ⟨r, rfl⟩
  | top => exact absurd hlt.1 (by simp)

/-- A word in [0, n) signed is below n unsigned. -/
theorem toNat_lt (w : BitVec 32) (h0 : IntOp.cmpi .sge w 0#32 = 1#1) (h1 : IntOp.cmpi .slt w 32000#32 = 1#1) :
    w.toNat < 32000 := by
  rw [IntOp.cmpi_sge] at h0
  rw [IntOp.cmpi_slt] at h1
  have e0 : (0#32 : BitVec 32).toInt = 0 := by decide
  have e1 : (32000#32 : BitVec 32).toInt = 32000 := by decide
  rw [e0] at h0
  rw [e1] at h1
  have h32 := w.isLt
  unfold BitVec.toInt at h0 h1
  split at h1 <;> omega

/-- The precondition, all ones, gives finiteness of both float arrays and the range of the targets. -/
theorem decode (X : FVec Ideal S8192x1024 .f32) (W : FVec Ideal S32000x1024 .f32) (T : IVec S8192 32)
    (h : Cert.Pre_finite_inputs.fn (F := Ideal) X W T = fun _ => 1#1) :
    Cert.Spec.Finite X ∧ Cert.Spec.Finite W ∧ Cert.Spec.Below T 32000 := by
  have h0 := congrFun h ValueIdx.ix0
  dsimp only [fn, fn_part1] at h0
  obtain ⟨h12, hT1⟩ := IntOp.andi_eq_one.1 h0
  obtain ⟨h8, hT0⟩ := IntOp.andi_eq_one.1 h12
  obtain ⟨hX, hW⟩ := IntOp.andi_eq_one.1 h8
  have eX := Host.reduce_andi_all _ _ _ _ _ hX
  have eW := Host.reduce_andi_all _ _ _ _ _ hW
  have eT0 := Host.reduce_andi_all _ _ _ _ _ hT0
  have eT1 := Host.reduce_andi_all _ _ _ _ _ hT1
  refine ⟨fun i => ?_, fun i => ?_, fun i => ?_⟩
  · have e := eX i
    have e' : Ideal.cmp .olt (max (X i : EReal) (-(X i : EReal))) (Ideal.ofBits .f32 0x7F800000#32) = 1#1 := e
    rw [inf_eq_top] at e'
    exact real_of_abs_lt _ e'
  · have e := eW i
    have e' : Ideal.cmp .olt (max (W i : EReal) (-(W i : EReal))) (Ideal.ofBits .f32 0x7F800000#32) = 1#1 := e
    rw [inf_eq_top] at e'
    exact real_of_abs_lt _ e'
  · exact toNat_lt (T i) (eT0 i) (eT1 i)

end Cert.PreDecode

end
-- ==== Proof.lean ====
/-
  A chunked softmax cross-entropy against its one-pass form, over the extended reals.

  Both programs take token features `X` [8192, 1024], vocabulary features `W` [32000, 1024] and target indices `T` [8192],
  and return `∑ₜ (log ∑ᵥ exp (Xₜ · Wᵥ) − Xₜ · W_{Tₜ})`. The reference forms all scores at once, shifts each row by its
  maximum before exponentiating and takes the target row by index. The kernel walks each tile of 1024 tokens over 25
  chunks of 1280 vocabulary rows, keeping per row a running shift (started at a large negative constant and raised to
  each chunk's maximum), the sum of exponentials relative to the current shift (rescaled whenever the shift rises) and
  the score at the target column (picked out by comparing the chunk-local column with the target minus the chunk's
  offset); after the last chunk it stores `log(sum) + shift − target score`, and the host adds the 8192 values.

  The two agree because `log ∑ᵥ exp (sᵥ − μ) + μ` does not depend on the real number `μ`: the kernel's final shift and the
  reference's row maximum are both real numbers when the inputs are finite, and the rescaling keeps the carried sum equal
  to the sum over the columns seen so far relative to the current shift. Finiteness of `X` and `W` makes every score a real
  number; the targets are required to index the vocabulary (`0 ≤ Tₜ < 32000`), where the kernel's clamp and the
  reference's index normalisation are both the identity and exactly one chunk holds the target column.
  The kernel's idealization rewrote nothing, so it is the kernel's own text read over the extended reals.
-/
import proofs.«430093_j77902116814964_3_alg».proof.Defs
import proofs.«430093_j77902116814964_3_alg».proof.Proof.Gen.Kernel
import proofs.«430093_j77902116814964_3_alg».proof.Proof.Gen.Kernel.Skeleton
import proofs.«430093_j77902116814964_3_alg».proof.Proof.Gen.Kernel.Launch
import proofs.«430093_j77902116814964_3_alg».proof.Proof.Gen.Kernel.Points
import proofs.«430093_j77902116814964_3_alg».proof.Proof.Gen.Kernel.Frame
import proofs.«430093_j77902116814964_3_alg».proof.Proof.Gen.KernelIdeal
import proofs.«430093_j77902116814964_3_alg».proof.Proof.Gen.KernelIdeal.Skeleton
import proofs.«430093_j77902116814964_3_alg».proof.Proof.Gen.KernelIdeal.Launch
import proofs.«430093_j77902116814964_3_alg».proof.Proof.Gen.KernelIdeal.Points
import proofs.«430093_j77902116814964_3_alg».proof.Proof.Gen.KernelIdeal.Frame
import proofs.«430093_j77902116814964_3_alg».proof.Proof.Gen.ReferenceIdeal
import proofs.«430093_j77902116814964_3_alg».proof.Proof.Gen.Pre_finite_inputs
import proofs.«430093_j77902116814964_3_alg».proof.Proof.KFinal
import proofs.«430093_j77902116814964_3_alg».proof.Proof.RefRun
import proofs.«430093_j77902116814964_3_alg».proof.Proof.RefValue
import proofs.«430093_j77902116814964_3_alg».proof.Proof.PreDecode
import Idealize.ShloMosaic.Adequacy
import Idealize.ShloMosaic.Init

noncomputable section

namespace Cert.Proof

open Idealize.ShloMosaic Idealize.SL.Sem
open Cert.KernelIdeal.KB (argX argW argT)

/-- The kernel as printed runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Run.run (F := Ideal) m ρ)

/-- Nothing was rewritten. -/
theorem preserves : Cert.preserves_Kernel_KernelIdeal := trivial

/-- Both programs end at the sum of the tokens' losses of the shared arguments. -/
theorem algebraic : Cert.algebraic_KernelIdeal_ReferenceIdeal := by
  intro m ρ m' ρ' hpre hagree
  have hdec : ∀ c : Dev Cert.KernelIdeal.nD,
      Cert.Spec.Finite (argX m c) ∧ Cert.Spec.Finite (argW m c) ∧ Cert.Spec.Below (argT m c) 32000 :=
    fun c => Cert.PreDecode.decode _ _ _ (hpre c)
  refine ⟨fun c => Cert.Spec.result (argX m c) (argW m c) (argT m c), Cert.KernelIdeal.KF.run m ρ hdec, ?_⟩
  refine (θ_run Cert.ReferenceIdeal.defs _ _).mono (fun _ h c => ⟨(h c).1.trans ?_, (h c).2⟩)
    (Cert.ReferenceIdeal.Run.run (F := Ideal) m' ρ')
  rw [(hagree c).1, (hagree c).2.1, (hagree c).2.2]
  exact Cert.ReferenceIdeal.Value.out_eq _ _ _ (hdec c).1 (hdec c).2.1 (hdec c).2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
